-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S2x1200000 : Shape := ⟨2, ![2, 1200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_

variable [Facts]

def fn {F : FTy → Type} [FloatOps F] (main_arg0 : FVec F S100000x64 .f32) (main_arg1 : FVec F S50000x64 .f32) (main_arg2 : IVec S2x1200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  main_v8
-- ==== Kernel.lean ====
abbrev S100000x64 : Shape := ⟨2, ![100000, 64]⟩
abbrev S50000x64 : Shape := ⟨2, ![50000, 64]⟩
abbrev S2x1200000 : Shape := ⟨2, ![2, 1200000]⟩
abbrev S1x1200000 : Shape := ⟨2, ![1, 1200000]⟩
abbrev S1200000 : Shape := ⟨1, ![1200000]⟩
abbrev S_ : Shape := ⟨0, ![]⟩
abbrev S150000 : Shape := ⟨1, ![150000]⟩
abbrev S1200000x1 : Shape := ⟨2, ![1200000, 1]⟩
abbrev S150000x64 : Shape := ⟨2, ![150000, 64]⟩
abbrev S1200000x64 : Shape := ⟨2, ![1200000, 64]⟩
abbrev S16000x64 : Shape := ⟨2, ![16000, 64]⟩
abbrev S16000x1 : Shape := ⟨2, ![16000, 1]⟩
abbrev S10000x64 : Shape := ⟨2, ![10000, 64]⟩

abbrev nBuf : Space → Nat
  | .hbm => 83
  | .vmem => 40
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2x1200000, .i32⟩
  | .hbm, ⟨3, _⟩ => ⟨S1x1200000, .i32⟩
  | .hbm, ⟨4, _⟩ => ⟨S1200000, .i32⟩
  | .hbm, ⟨5, _⟩ => ⟨S1x1200000, .i32⟩
  | .hbm, ⟨6, _⟩ => ⟨S1200000, .i32⟩
  | .hbm, ⟨7, _⟩ => ⟨S_, .f32⟩
  | .hbm, ⟨8, _⟩ => ⟨S1200000, .f32⟩
  | .hbm, ⟨9, _⟩ => ⟨S_, .f32⟩
  | .hbm, ⟨10, _⟩ => ⟨S150000, .f32⟩
  | .hbm, ⟨11, _⟩ => ⟨S1200000x1, .i32⟩
  | .hbm, ⟨12, _⟩ => ⟨S150000, .f32⟩
  | .hbm, ⟨13, _⟩ => ⟨S_, .f32⟩
  | .hbm, ⟨14, _⟩ => ⟨S150000, .f32⟩
  | .hbm, ⟨15, _⟩ => ⟨S150000, .f32⟩
  | .hbm, ⟨16, _⟩ => ⟨S_, .i32⟩
  | .hbm, ⟨17, _⟩ => ⟨S1200000, .i32⟩
  | .hbm, ⟨18, _⟩ => ⟨S1200000, .i1⟩
  | .hbm, ⟨19, _⟩ => ⟨S_, .i32⟩
  | .hbm, ⟨20, _⟩ => ⟨S1200000, .i32⟩
  | .hbm, ⟨21, _⟩ => ⟨S1200000, .i32⟩
  | .hbm, ⟨22, _⟩ => ⟨S1200000, .i32⟩
  | .hbm, ⟨23, _⟩ => ⟨S1200000x1, .i32⟩
  | .hbm, ⟨24, _⟩ => ⟨S1200000, .f32⟩
  | .hbm, ⟨25, _⟩ => ⟨S_, .i32⟩
  | .hbm, ⟨26, _⟩ => ⟨S1200000, .i32⟩
  | .hbm, ⟨27, _⟩ => ⟨S1200000, .i1⟩
  | .hbm, ⟨28, _⟩ => ⟨S_, .i32⟩
  | .hbm, ⟨29, _⟩ => ⟨S1200000, .i32⟩
  | .hbm, ⟨30, _⟩ => ⟨S1200000, .i32⟩
  | .hbm, ⟨31, _⟩ => ⟨S1200000, .i32⟩
  | .hbm, ⟨32, _⟩ => ⟨S1200000x1, .i32⟩
  | .hbm, ⟨33, _⟩ => ⟨S1200000, .f32⟩
  | .hbm, ⟨34, _⟩ => ⟨S1200000, .f32⟩
  | .hbm, ⟨35, _⟩ => ⟨S1200000x1, .f32⟩
  | .hbm, ⟨36, _⟩ => ⟨S150000x64, .f32⟩
  | .hbm, ⟨37, _⟩ => ⟨S_, .i32⟩
  | .hbm, ⟨38, _⟩ => ⟨S1200000, .i32⟩
  | .hbm, ⟨39, _⟩ => ⟨S1200000, .i1⟩
  | .hbm, ⟨40, _⟩ => ⟨S_, .i32⟩
  | .hbm, ⟨41, _⟩ => ⟨S1200000, .i32⟩
  | .hbm, ⟨42, _⟩ => ⟨S1200000, .i32⟩
  | .hbm, ⟨43, _⟩ => ⟨S1200000, .i32⟩
  | .hbm, ⟨44, _⟩ => ⟨S1200000x1, .i32⟩
  | .hbm, ⟨45, _⟩ => ⟨S1200000x64, .f32⟩
  | .hbm, ⟨46, _⟩ => ⟨S1200000x64, .f32⟩
  | .hbm, ⟨47, _⟩ => ⟨S_, .f32⟩
  | .hbm, ⟨48, _⟩ => ⟨S150000x64, .f32⟩
  | .hbm, ⟨49, _⟩ => ⟨S1200000x1, .i32⟩
  | .hbm, ⟨50, _⟩ => ⟨S150000x64, .f32⟩
  | .hbm, ⟨51, _⟩ => ⟨S150000x64, .f32⟩
  | .hbm, ⟨52, _⟩ => ⟨S_, .i32⟩
  | .hbm, ⟨53, _⟩ => ⟨S1200000, .i32⟩
  | .hbm, ⟨54, _⟩ => ⟨S1200000, .i1⟩
  | .hbm, ⟨55, _⟩ => ⟨S_, .i32⟩
  | .hbm, ⟨56, _⟩ => ⟨S1200000, .i32⟩
  | .hbm, ⟨57, _⟩ => ⟨S1200000, .i32⟩
  | .hbm, ⟨58, _⟩ => ⟨S1200000, .i32⟩
  | .hbm, ⟨59, _⟩ => ⟨S1200000x1, .i32⟩
  | .hbm, ⟨60, _⟩ => ⟨S1200000x64, .f32⟩
  | .hbm, ⟨61, _⟩ => ⟨S1200000x64, .f32⟩
  | .hbm, ⟨62, _⟩ => ⟨S_, .f32⟩
  | .hbm, ⟨63, _⟩ => ⟨S150000x64, .f32⟩
  | .hbm, ⟨64, _⟩ => ⟨S1200000x1, .i32⟩
  | .hbm, ⟨65, _⟩ => ⟨S150000x64, .f32⟩
  | .hbm, ⟨66, _⟩ => ⟨S150000x64, .f32⟩
  | .hbm, ⟨67, _⟩ => ⟨S_, .i32⟩
  | .hbm, ⟨68, _⟩ => ⟨S1200000, .i32⟩
  | .hbm, ⟨69, _⟩ => ⟨S1200000, .i1⟩
  | .hbm, ⟨70, _⟩ => ⟨S_, .i32⟩
  | .hbm, ⟨71, _⟩ => ⟨S1200000, .i32⟩
  | .hbm, ⟨72, _⟩ => ⟨S1200000, .i32⟩
  | .hbm, ⟨73, _⟩ => ⟨S1200000, .i32⟩
  | .hbm, ⟨74, _⟩ => ⟨S1200000x1, .i32⟩
  | .hbm, ⟨75, _⟩ => ⟨S1200000x64, .f32⟩
  | .hbm, ⟨76, _⟩ => ⟨S1200000x64, .f32⟩
  | .hbm, ⟨77, _⟩ => ⟨S_, .f32⟩
  | .hbm, ⟨78, _⟩ => ⟨S150000x64, .f32⟩
  | .hbm, ⟨79, _⟩ => ⟨S1200000x1, .i32⟩
  | .hbm, ⟨80, _⟩ => ⟨S150000x64, .f32⟩
  | .hbm, ⟨81, _⟩ => ⟨S150000x64, .f32⟩
  | .hbm, ⟨82, _⟩ => ⟨S150000x64, .f32⟩
  | .local _ .vmem, ⟨0, _⟩ => ⟨S16000x64, .f32⟩
  | .local _ .vmem, ⟨1, _⟩ => ⟨S16000x64, .f32⟩
  | .local _ .vmem, ⟨2, _⟩ => ⟨S16000x1, .f32⟩
  | .local _ .vmem, ⟨3, _⟩ => ⟨S16000x1, .f32⟩
  | .local _ .vmem, ⟨4, _⟩ => ⟨S16000x64, .f32⟩
  | .local _ .vmem, ⟨5, _⟩ => ⟨S16000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S16000x64, .f32⟩
  | .local _ .vmem, ⟨13, _⟩ => ⟨S16000x64, .f32⟩
  | .local _ .vmem, ⟨14, _⟩ => ⟨S16000x1, .f32⟩
  | .local _ .vmem, ⟨15, _⟩ => ⟨S16000x1, .f32⟩
  | .local _ .vmem, ⟨16, _⟩ => ⟨S16000x64, .f32⟩
  | .local _ .vmem, ⟨17, _⟩ => ⟨S16000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S16000x64, .f32⟩
  | .local _ .vmem, ⟨25, _⟩ => ⟨S16000x64, .f32⟩
  | .local _ .vmem, ⟨26, _⟩ => ⟨S16000x1, .f32⟩
  | .local _ .vmem, ⟨27, _⟩ => ⟨S16000x1, .f32⟩
  | .local _ .vmem, ⟨28, _⟩ => ⟨S16000x64, .f32⟩
  | .local _ .vmem, ⟨29, _⟩ => ⟨S16000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_c_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_8 : Ref sig .tc := ⟨.hbm, 52, rfl⟩
abbrev main_v39 : Ref sig .tc := ⟨.hbm, 53, rfl⟩
abbrev main_v40 : Ref sig .tc := ⟨.hbm, 54, rfl⟩
abbrev main_c_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_11 : Ref sig .tc := ⟨.hbm, 67, rfl⟩
abbrev main_v51 : Ref sig .tc := ⟨.hbm, 68, rfl⟩
abbrev main_v52 : Ref sig .tc := ⟨.hbm, 69, rfl⟩
abbrev main_c_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_13 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![75], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![15], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![75], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S16000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S16000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S16000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![15], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![15], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S150000 : S_.BroadcastsInDim S150000 (![] : Fin 0 → Fin S150000.rank)
  bcast_S1200000_S1200000x1_0 : S1200000.BroadcastsInDim S1200000x1 (![0] : Fin 1 → Fin S1200000x1.rank)
  shapeCasts_S1200000_S1200000x1 : S1200000.ShapeCasts S1200000x1
  concatenates_S100000x64_S50000x64_S150000x64_d0 : Shape.Concatenates [S100000x64, S50000x64] S150000x64 0
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  inb_S16000x1_S16000x1_0_0 : ∀ a, (![0, 0] : Fin 2 → Nat) a + S16000x1.size a ≤ S16000x1.size a
  h_S16000x1 : 0 < S16000x1.numel
  shapeCasts_S16000x1_S16000x1 : S16000x1.ShapeCasts S16000x1
  broadcasts_S16000x1_S16000x64 : S16000x1.Broadcasts S16000x64
  bcast_S_S150000x64 : S_.BroadcastsInDim S150000x64 (![] : Fin 0 → Fin S150000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  scatter_S150000_S1200000x1_S1200000_n_0_0_1_wf : ScatterDims.WF S150000 S1200000x1 S1200000 [] [0] [0] 1
  gather_S150000_S1200000x1_S1200000_n_0_n_n_0_1_1_wf : GatherDims.WF S150000 S1200000x1 S1200000 [] [0] [] [0] [] 1 ![1]
  gather_S150000x64_S1200000x1_S1200000x64_1_0_n_n_0_1_164_wf : GatherDims.WF S150000x64 S1200000x1 S1200000x64 [1] [0] [] [0] [] 1 ![1, 64]
  scatter_S150000x64_S1200000x1_S1200000x64_1_0_0_1_wf : ScatterDims.WF S150000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S1200000x64.size a
  hwx0_0 : ∀ i : grid0.Coords, EltTy.bits .f32 = 32 ∨ (Rect.block (s := S1200000x64) S16000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x1.size a ≤ S1200000x1.size a
  hwx0_1 : ∀ i : grid0.Coords, EltTy.bits .f32 = 32 ∨ (Rect.block (s := S1200000x1) S16000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x64.size a ≤ S1200000x64.size a
  hwx0_2 : ∀ i : grid0.Coords, EltTy.bits .f32 = 32 ∨ (Rect.block (s := S1200000x64) S16000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S150000x64.size a
  hwx1_0 : ∀ i : grid1.Coords, EltTy.bits .f32 = 32 ∨ (Rect.block (s := S150000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S150000x64.size a
  hwx1_1 : ∀ i : grid1.Coords, EltTy.bits .f32 = 32 ∨ (Rect.block (s := S150000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S150000x64.size a
  hwx1_2 : ∀ i : grid1.Coords, EltTy.bits .f32 = 32 ∨ (Rect.block (s := S150000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x64.size a ≤ S1200000x64.size a
  hwx2_0 : ∀ i : grid2.Coords, EltTy.bits .f32 = 32 ∨ (Rect.block (s := S1200000x64) S16000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16000x1.size a ≤ S1200000x1.size a
  hwx2_1 : ∀ i : grid2.Coords, EltTy.bits .f32 = 32 ∨ (Rect.block (s := S1200000x1) S16000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16000x64.size a ≤ S1200000x64.size a
  hwx2_2 : ∀ i : grid2.Coords, EltTy.bits .f32 = 32 ∨ (Rect.block (s := S1200000x64) S16000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S150000x64.size a
  hwx3_0 : ∀ i : grid3.Coords, EltTy.bits .f32 = 32 ∨ (Rect.block (s := S150000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S150000x64.size a
  hwx3_1 : ∀ i : grid3.Coords, EltTy.bits .f32 = 32 ∨ (Rect.block (s := S150000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S150000x64.size a
  hwx3_2 : ∀ i : grid3.Coords, EltTy.bits .f32 = 32 ∨ (Rect.block (s := S150000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S16000x64.size a ≤ S1200000x64.size a
  hwx4_0 : ∀ i : grid4.Coords, EltTy.bits .f32 = 32 ∨ (Rect.block (s := S1200000x64) S16000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S16000x1.size a ≤ S1200000x1.size a
  hwx4_1 : ∀ i : grid4.Coords, EltTy.bits .f32 = 32 ∨ (Rect.block (s := S1200000x1) S16000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S16000x64.size a ≤ S1200000x64.size a
  hwx4_2 : ∀ i : grid4.Coords, EltTy.bits .f32 = 32 ∨ (Rect.block (s := S1200000x64) S16000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S150000x64.size a
  hwx5_0 : ∀ i : grid5.Coords, EltTy.bits .f32 = 32 ∨ (Rect.block (s := S150000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S150000x64.size a
  hwx5_1 : ∀ i : grid5.Coords, EltTy.bits .f32 = 32 ∨ (Rect.block (s := S150000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S150000x64.size a
  hwx5_2 : ∀ i : grid5.Coords, EltTy.bits .f32 = 32 ∨ (Rect.block (s := S150000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S150000x64.size a
  hwx6_0 : ∀ i : grid6.Coords, EltTy.bits .f32 = 32 ∨ (Rect.block (s := S150000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S150000x64.size a
  hwx6_1 : ∀ i : grid6.Coords, EltTy.bits .f32 = 32 ∨ (Rect.block (s := S150000x64) S10000x64.size (cc6_transform_1 i) (hinb6_1 i)).WholeWords (EltTy.packing .f32)

variable [Facts₀]

def scatter_S150000_S1200000x1_S1200000_n_0_0_1 : ScatterDims S150000 S1200000x1 S1200000 where
  updateWindowDims := []
  insertedWindowDims := [0]
  scatterDimsToOperandDims := [0]
  indexVectorDim := 1
  wf := scatter_S150000_S1200000x1_S1200000_n_0_0_1_wf
def gather_S150000_S1200000x1_S1200000_n_0_n_n_0_1_1 : GatherDims S150000 S1200000x1 S1200000 where
  offsetDims := []
  collapsedSliceDims := [0]
  operandBatchingDims := []
  startIndicesBatchingDims := []
  startIndexMap := [0]
  indexVectorDim := 1
  sliceSizes := ![1]
  wf := gather_S150000_S1200000x1_S1200000_n_0_n_n_0_1_1_wf
def gather_S150000x64_S1200000x1_S1200000x64_1_0_n_n_0_1_164 : GatherDims S150000x64 S1200000x1 S1200000x64 where
  offsetDims := [1]
  collapsedSliceDims := [0]
  operandBatchingDims := []
  startIndicesBatchingDims := []
  startIndexMap := [0]
  indexVectorDim := 1
  sliceSizes := ![1, 64]
  wf := gather_S150000x64_S1200000x1_S1200000x64_1_0_n_n_0_1_164_wf
def scatter_S150000x64_S1200000x1_S1200000x64_1_0_0_1 : ScatterDims S150000x64 S1200000x1 S1200000x64 where
  updateWindowDims := [1]
  insertedWindowDims := [0]
  scatterDimsToOperandDims := [0]
  indexVectorDim := 1
  wf := scatter_S150000x64_S1200000x1_S1200000x64_1_0_0_1_wf

abbrev win0_0 : Pipeline.Window sig grid0 :=
  Pipeline.Window.ofSpec (Memref.whole main_v33) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S16000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S16000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S16000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S16000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S16000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v50) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v57) S16000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25) S16000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v58) S16000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v50) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v62) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v62) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v63) S10000x64.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S2x1200000 : Shape := ⟨2, ![2, 1200000]⟩
abbrev S1x1200000 : Shape := ⟨2, ![1, 1200000]⟩
abbrev S1200000 : Shape := ⟨1, ![1200000]⟩
abbrev S_ : Shape := ⟨0, ![]⟩
abbrev S150000 : Shape := ⟨1, ![150000]⟩
abbrev S1200000x1 : Shape := ⟨2, ![1200000, 1]⟩
abbrev S150000x64 : Shape := ⟨2, ![150000, 64]⟩
abbrev S1200000x64 : Shape := ⟨2, ![1200000, 64]⟩

abbrev nBuf : Space → Nat
  | .hbm => 90
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2x1200000, .i32⟩
  | .hbm, ⟨3, _⟩ => ⟨S1x1200000, .i32⟩
  | .hbm, ⟨4, _⟩ => ⟨S1200000, .i32⟩
  | .hbm, ⟨5, _⟩ => ⟨S1x1200000, .i32⟩
  | .hbm, ⟨6, _⟩ => ⟨S1200000, .i32⟩
  | .hbm, ⟨7, _⟩ => ⟨S_, .f32⟩
  | .hbm, ⟨8, _⟩ => ⟨S1200000, .f32⟩
  | .hbm, ⟨9, _⟩ => ⟨S_, .f32⟩
  | .hbm, ⟨10, _⟩ => ⟨S150000, .f32⟩
  | .hbm, ⟨11, _⟩ => ⟨S1200000x1, .i32⟩
  | .hbm, ⟨12, _⟩ => ⟨S150000, .f32⟩
  | .hbm, ⟨13, _⟩ => ⟨S_, .f32⟩
  | .hbm, ⟨14, _⟩ => ⟨S150000, .f32⟩
  | .hbm, ⟨15, _⟩ => ⟨S150000, .f32⟩
  | .hbm, ⟨16, _⟩ => ⟨S_, .i32⟩
  | .hbm, ⟨17, _⟩ => ⟨S1200000, .i32⟩
  | .hbm, ⟨18, _⟩ => ⟨S1200000, .i1⟩
  | .hbm, ⟨19, _⟩ => ⟨S_, .i32⟩
  | .hbm, ⟨20, _⟩ => ⟨S1200000, .i32⟩
  | .hbm, ⟨21, _⟩ => ⟨S1200000, .i32⟩
  | .hbm, ⟨22, _⟩ => ⟨S1200000, .i32⟩
  | .hbm, ⟨23, _⟩ => ⟨S1200000x1, .i32⟩
  | .hbm, ⟨24, _⟩ => ⟨S1200000, .f32⟩
  | .hbm, ⟨25, _⟩ => ⟨S_, .i32⟩
  | .hbm, ⟨26, _⟩ => ⟨S1200000, .i32⟩
  | .hbm, ⟨27, _⟩ => ⟨S1200000, .i1⟩
  | .hbm, ⟨28, _⟩ => ⟨S_, .i32⟩
  | .hbm, ⟨29, _⟩ => ⟨S1200000, .i32⟩
  | .hbm, ⟨30, _⟩ => ⟨S1200000, .i32⟩
  | .hbm, ⟨31, _⟩ => ⟨S1200000, .i32⟩
  | .hbm, ⟨32, _⟩ => ⟨S1200000x1, .i32⟩
  | .hbm, ⟨33, _⟩ => ⟨S1200000, .f32⟩
  | .hbm, ⟨34, _⟩ => ⟨S1200000, .f32⟩
  | .hbm, ⟨35, _⟩ => ⟨S150000x64, .f32⟩
  | .hbm, ⟨36, _⟩ => ⟨S1200000x1, .f32⟩
  | .hbm, ⟨37, _⟩ => ⟨S_, .i32⟩
  | .hbm, ⟨38, _⟩ => ⟨S1200000, .i32⟩
  | .hbm, ⟨39, _⟩ => ⟨S1200000, .i1⟩
  | .hbm, ⟨40, _⟩ => ⟨S_, .i32⟩
  | .hbm, ⟨41, _⟩ => ⟨S1200000, .i32⟩
  | .hbm, ⟨42, _⟩ => ⟨S1200000, .i32⟩
  | .hbm, ⟨43, _⟩ => ⟨S1200000, .i32⟩
  | .hbm, ⟨44, _⟩ => ⟨S1200000x1, .i32⟩
  | .hbm, ⟨45, _⟩ => ⟨S1200000x64, .f32⟩
  | .hbm, ⟨46, _⟩ => ⟨S1200000x64, .f32⟩
  | .hbm, ⟨47, _⟩ => ⟨S1200000x64, .f32⟩
  | .hbm, ⟨48, _⟩ => ⟨S_, .f32⟩
  | .hbm, ⟨49, _⟩ => ⟨S150000x64, .f32⟩
  | .hbm, ⟨50, _⟩ => ⟨S1200000x1, .i32⟩
  | .hbm, ⟨51, _⟩ => ⟨S150000x64, .f32⟩
  | .hbm, ⟨52, _⟩ => ⟨S150000x64, .f32⟩
  | .hbm, ⟨53, _⟩ => ⟨S1200000x1, .f32⟩
  | .hbm, ⟨54, _⟩ => ⟨S_, .i32⟩
  | .hbm, ⟨55, _⟩ => ⟨S1200000, .i32⟩
  | .hbm, ⟨56, _⟩ => ⟨S1200000, .i1⟩
  | .hbm, ⟨57, _⟩ => ⟨S_, .i32⟩
  | .hbm, ⟨58, _⟩ => ⟨S1200000, .i32⟩
  | .hbm, ⟨59, _⟩ => ⟨S1200000, .i32⟩
  | .hbm, ⟨60, _⟩ => ⟨S1200000, .i32⟩
  | .hbm, ⟨61, _⟩ => ⟨S1200000x1, .i32⟩
  | .hbm, ⟨62, _⟩ => ⟨S1200000x64, .f32⟩
  | .hbm, ⟨63, _⟩ => ⟨S1200000x64, .f32⟩
  | .hbm, ⟨64, _⟩ => ⟨S1200000x64, .f32⟩
  | .hbm, ⟨65, _⟩ => ⟨S_, .f32⟩
  | .hbm, ⟨66, _⟩ => ⟨S150000x64, .f32⟩
  | .hbm, ⟨67, _⟩ => ⟨S1200000x1, .i32⟩
  | .hbm, ⟨68, _⟩ => ⟨S150000x64, .f32⟩
  | .hbm, ⟨69, _⟩ => ⟨S150000x64, .f32⟩
  | .hbm, ⟨70, _⟩ => ⟨S1200000x1, .f32⟩
  | .hbm, ⟨71, _⟩ => ⟨S_, .i32⟩
  | .hbm, ⟨72, _⟩ => ⟨S1200000, .i32⟩
  | .hbm, ⟨73, _⟩ => ⟨S1200000, .i1⟩
  | .hbm, ⟨74, _⟩ => ⟨S_, .i32⟩
  | .hbm, ⟨75, _⟩ => ⟨S1200000, .i32⟩
  | .hbm, ⟨76, _⟩ => ⟨S1200000, .i32⟩
  | .hbm, ⟨77, _⟩ => ⟨S1200000, .i32⟩
  | .hbm, ⟨78, _⟩ => ⟨S1200000x1, .i32⟩
  | .hbm, ⟨79, _⟩ => ⟨S1200000x64, .f32⟩
  | .hbm, ⟨80, _⟩ => ⟨S1200000x64, .f32⟩
  | .hbm, ⟨81, _⟩ => ⟨S1200000x64, .f32⟩
  | .hbm, ⟨82, _⟩ => ⟨S_, .f32⟩
  | .hbm, ⟨83, _⟩ => ⟨S150000x64, .f32⟩
  | .hbm, ⟨84, _⟩ => ⟨S1200000x1, .i32⟩
  | .hbm, ⟨85, _⟩ => ⟨S150000x64, .f32⟩
  | .hbm, ⟨86, _⟩ => ⟨S150000x64, .f32⟩
  | .hbm, ⟨87, _⟩ => ⟨S_, .f32⟩
  | .hbm, ⟨88, _⟩ => ⟨S150000x64, .f32⟩
  | .hbm, ⟨89, _⟩ => ⟨S150000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_c_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_8 : Ref sig .tc := ⟨.hbm, 54, rfl⟩
abbrev main_v41 : Ref sig .tc := ⟨.hbm, 55, rfl⟩
abbrev main_v42 : Ref sig .tc := ⟨.hbm, 56, rfl⟩
abbrev main_c_9 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_11 : Ref sig .tc := ⟨.hbm, 71, rfl⟩
abbrev main_v55 : Ref sig .tc := ⟨.hbm, 72, rfl⟩
abbrev main_v56 : Ref sig .tc := ⟨.hbm, 73, rfl⟩
abbrev main_c_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_14 : Ref sig .tc := ⟨.hbm, 87, rfl⟩
abbrev main_v68 : Ref sig .tc := ⟨.hbm, 88, rfl⟩
abbrev main_v69 : Ref sig .tc := ⟨.hbm, 89, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S150000 : S_.BroadcastsInDim S150000 (![] : Fin 0 → Fin S150000.rank)
  bcast_S1200000_S1200000x1_0 : S1200000.BroadcastsInDim S1200000x1 (![0] : Fin 1 → Fin S1200000x1.rank)
  concatenates_S100000x64_S50000x64_S150000x64_d0 : Shape.Concatenates [S100000x64, S50000x64] S150000x64 0
  bcast_S1200000x1_S1200000x64_0_1 : S1200000x1.BroadcastsInDim S1200000x64 (![0, 1] : Fin 2 → Fin S1200000x64.rank)
  bcast_S_S150000x64 : S_.BroadcastsInDim S150000x64 (![] : Fin 0 → Fin S150000x64.rank)
  scatter_S150000_S1200000x1_S1200000_n_0_0_1_wf : ScatterDims.WF S150000 S1200000x1 S1200000 [] [0] [0] 1
  gather_S150000_S1200000x1_S1200000_n_0_n_n_0_1_1_wf : GatherDims.WF S150000 S1200000x1 S1200000 [] [0] [] [0] [] 1 ![1]
  gather_S150000x64_S1200000x1_S1200000x64_1_0_n_n_0_1_164_wf : GatherDims.WF S150000x64 S1200000x1 S1200000x64 [1] [0] [] [0] [] 1 ![1, 64]
  scatter_S150000x64_S1200000x1_S1200000x64_1_0_0_1_wf : ScatterDims.WF S150000x64 S1200000x1 S1200000x64 [1] [0] [0] 1

variable [Facts₀]

def scatter_S150000_S1200000x1_S1200000_n_0_0_1 : ScatterDims S150000 S1200000x1 S1200000 where
  updateWindowDims := []
  insertedWindowDims := [0]
  scatterDimsToOperandDims := [0]
  indexVectorDim := 1
  wf := scatter_S150000_S1200000x1_S1200000_n_0_0_1_wf
def gather_S150000_S1200000x1_S1200000_n_0_n_n_0_1_1 : GatherDims S150000 S1200000x1 S1200000 where
  offsetDims := []
  collapsedSliceDims := [0]
  operandBatchingDims := []
  startIndicesBatchingDims := []
  startIndexMap := [0]
  indexVectorDim := 1
  sliceSizes := ![1]
  wf := gather_S150000_S1200000x1_S1200000_n_0_n_n_0_1_1_wf
def gather_S150000x64_S1200000x1_S1200000x64_1_0_n_n_0_1_164 : GatherDims S150000x64 S1200000x1 S1200000x64 where
  offsetDims := [1]
  collapsedSliceDims := [0]
  operandBatchingDims := []
  startIndicesBatchingDims := []
  startIndexMap := [0]
  indexVectorDim := 1
  sliceSizes := ![1, 64]
  wf := gather_S150000x64_S1200000x1_S1200000x64_1_0_n_n_0_1_164_wf
def scatter_S150000x64_S1200000x1_S1200000x64_1_0_0_1 : ScatterDims S150000x64 S1200000x1 S1200000x64 where
  updateWindowDims := [1]
  insertedWindowDims := [0]
  scatterDimsToOperandDims := [0]
  indexVectorDim := 1
  wf := scatter_S150000x64_S1200000x1_S1200000x64_1_0_0_1_wf

class Facts : Prop extends Facts₀ where

variable [Facts]
-- ==== Proof.EdgeRows.lean ====
/-
  The two functions the kernel's regions compute beyond a plain sum, named once.
  The message regions: the rows of an edge array, one gathered embedding per edge, each scaled by its edge's weight
  from a one-column array; entry (e, d) of the result is entry (e, d) of the edge array times entry (e, 0) of the column.
  The last region: every entry of the accumulated embeddings times the scalar the word 0x3E800000 denotes.
-/
import proofs.«174279_j42932493091121_1_alg».proof.KernelIdeal

noncomputable section

namespace Cert.KernelIdeal.RegionValue

open Cert.KernelIdeal Idealize.ShloMosaic

variable {F : FTy → Type} [FloatOps F]

/-- Where entry (e, d) of an edge array finds its weight: row e of the one-column array. -/
def edgeCol (i : S1200000x64.Idx) : S1200000x1.Idx := fun a => match a with
  | ⟨0, _⟩ => ⟨(i 0).val, (i 0).isLt⟩
  | ⟨1, _⟩ => ⟨0, Nat.one_pos⟩

/-- The same inside a block of 16000 rows. -/
def blockCol (j : S16000x64.Idx) : S16000x1.Idx := fun a => match a with
  | ⟨0, _⟩ => ⟨(j 0).val, (j 0).isLt⟩
  | ⟨1, _⟩ => ⟨0, Nat.one_pos⟩

/-- The rows of an edge array scaled by a column of weights. -/
def scaleRows (g : FVec F S1200000x64 .f32) (w : FVec F S1200000x1 .f32) : FVec F S1200000x64 .f32 :=
  fun i => FloatOps.mulf (g i) (w (edgeCol i))

/-- Every entry of an array times the scalar the word 0x3E800000 denotes. -/
def quarterOf (a : FVec F S150000x64 .f32) : FVec F S150000x64 .f32 :=
  fun i => FloatOps.mulf (a i) (Scalar.ofBits (F := F) .f32 0x3E800000#32)

end Cert.KernelIdeal.RegionValue

end
-- ==== Proof.RegionScale0.lean ====
/-
  Region 0 of the kernel's program scales each row of a [1200000, 64] array (main_v33 as the region finds it: one gathered
  embedding per edge) by that edge's weight, read from a [1200000, 1] column (main_v25), in 75 blocks of 16000 rows: at
  point t the row windows sit on rows 16000·t … 16000·t + 15999, the body broadcasts its [16000, 1] block of weights
  along the 64 columns and stores the entrywise product, and the 75 output blocks tile the output array. So entry
  (e, d) of the output array ends as entry (e, d) of the first array times entry (e, 0) of the column.
-/
import proofs.«174279_j42932493091121_1_alg».proof.Proof.Gen.KernelIdeal.Frame
import proofs.«174279_j42932493091121_1_alg».proof.Proof.EdgeRows
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem scale0_zero_off : (![0, 0] : Fin 2 → Nat) = fun _ => 0 := funext fun a => by fin_cases a <;> rfl

/-- The body's stored value at (r, d): the first block at (r, d) times the weight block at (r, 0) (the casts to the
    same shape are the identity; the broadcast along the columns reads column 0). -/
theorem scale0_pay_apply (x0 : Vec F S16000x64 .f32) (x1 : Vec F S16000x1 .f32) (j : S16000x64.Idx) :
    k0_pay1 x0 x1 j = FloatOps.mulf (x0 j) (x1 (blockCol j)) := by
  unfold k0_pay1
  simp only [shapeCast_self]
  show FloatOps.mulf (x0 j) (broadcastTo S16000x64 x1 broadcasts_S16000x1_S16000x64 j) = _
  rw [broadcastTo_apply x1 broadcasts_S16000x1_S16000x64 j (blockCol j) (fun a => match a with
    | ⟨0, _⟩ => by show (j 0).val = if (16000 : Nat) = 1 then 0 else (j 0).val; rw [if_neg (by decide)]
    | ⟨1, _⟩ => by show 0 = if (1 : Nat) = 1 then 0 else (j 1).val; rw [if_pos rfl])]

/-- The index maps at every point: all three windows on block row t; the row windows on block column 0, and so the column's. -/
theorem scale0_idx : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0 :=
  (by decide +kernel : ∀ t : Fin grid0.N, _)

/-- Every one of the 75 block rows is some point's. -/
theorem scale0_onto : ∀ q : Fin 75, ∃ t : Fin cfg0.N, win0_2.index t = ![q.val, 0] :=
  (by decide +kernel : ∀ q : Fin 75, ∃ t : Fin grid0.N, win0_2.index t = ![q.val, 0])

/-- What point t writes back is block t of the scaled rows. -/
theorem scale0_flushed (c : Dev nD) (t : Fin cfg0.N) :
    (dat0 V c).flushed 2 t
      = ((cfg0.win 2).blk t).view.read (Elt F) (scaleRows (V c main_v33) (V c main_v25)) := by
  show (cfg0.win 2).cut (grid0.coords t) ((dat0 V c).after 2 t) = _
  rw [after0_2]
  unfold out0_2
  rw [View.canon_unit_zero scale0_zero_off]
  simp only [View.ld_unit_zero (S := S16000x64) scale0_zero_off, View.ld_unit_zero (S := S16000x1) scale0_zero_off]
  obtain ⟨e0, e1, e2, e3⟩ := scale0_idx t
  funext j
  refine (scale0_pay_apply _ _ j).trans ?_
  show FloatOps.mulf (V c main_v33 (((cfg0.win 0).blk t).view.emb j)) (V c main_v25 (((cfg0.win 1).blk t).view.emb (blockCol j)))
    = FloatOps.mulf (V c main_v33 (((cfg0.win 2).blk t).view.emb j)) (V c main_v25 (edgeCol (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 16000 + 1 * (j 0).val = win0_2.index t (0 : Fin 2) * 16000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (blockCol j) = edgeCol (((cfg0.win 2).blk t).view.emb j) := by
    funext a; apply Fin.ext
    match a with
    | ⟨0, _⟩ => show win0_1.index t (0 : Fin 2) * 16000 + 1 * (j 0).val = win0_2.index t (0 : Fin 2) * 16000 + 1 * (j 0).val; omega
    | ⟨1, _⟩ => show win0_1.index t (1 : Fin 2) * 1 + 1 * 0 = 0; omega
  rw [h0, h1]

/-- An index of the output array is in point t's block iff each coordinate is in the block's range on its axis. -/
theorem scale0_mem (t : Fin cfg0.N) (i : S1200000x64.Idx) :
    i ∈ ((cfg0.win 2).blk t).view.set ↔ ∀ a : Fin 2, win0_2.index t a * S16000x64.size a ≤ (i a).val ∧ (i a).val < win0_2.index t a * S16000x64.size a + S16000x64.size a := by
  show i ∈ ((View.whole main_v34).slice (win0_2.rect t)).set ↔ _
  rw [View.set_slice_whole, Rect.mem_set_unit]
  exact Iff.rfl

/-- Row e of the output array lies in the block of the point whose block row is e / 16000. -/
theorem scale0_cover (i : S1200000x64.Idx) :
    ∃ t : Fin cfg0.N, (cfg0.win 2).flush t = true ∧ i ∈ ((cfg0.win 2).blk t).view.set := by
  have hi0 : (i 0).val < 1200000 := (i 0).isLt
  have hi1 : (i 1).val < 64 := (i 1).isLt
  obtain ⟨t, ht⟩ := scale0_onto ⟨(i 0).val / 16000, by omega⟩
  have q0 : win0_2.index t (0 : Fin 2) = (i 0).val / 16000 := congrFun ht 0
  have q1 : win0_2.index t (1 : Fin 2) = 0 := congrFun ht 1
  refine ⟨t, flush0_2 t, ?_⟩
  rw [scale0_mem]
  intro a
  match a with
  | ⟨0, _⟩ => show win0_2.index t (0 : Fin 2) * 16000 ≤ (i 0).val ∧ (i 0).val < win0_2.index t (0 : Fin 2) * 16000 + 16000; omega
  | ⟨1, _⟩ => show win0_2.index t (1 : Fin 2) * 64 ≤ (i 1).val ∧ (i 1).val < win0_2.index t (1 : Fin 2) * 64 + 64; omega

/-- The output array after the region: the first array's rows scaled by the column's weights, as the region found them. -/
theorem scale0_array (c : Dev nD) :
    (dat0 V c).arrAt 2 cfg0.N = scaleRows (V c main_v33) (V c main_v25) :=
  (dat0 V c).arrAt_eq_of_cover 2 _ (fun t _ => scale0_flushed V c t) (scale0_cover)

end Cert.KernelIdeal.RegionValue

end
-- ==== Proof.RegionAdd1.lean ====
/-
  Region 1 of the kernel's program adds two [150000, 64] arrays (main_v26 and main_v37 as the region finds them) in fifteen
  blocks of 10000 rows: at point t all three windows sit on rows 10000·t … 10000·t + 9999, the body stores the
  entrywise sum of its two input blocks, and the fifteen output blocks tile the output array. So the output array
  ends as the entrywise sum of the two input arrays, whatever they hold.
-/
import proofs.«174279_j42932493091121_1_alg».proof.Proof.Gen.KernelIdeal.Frame
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem add1_zero_off : (![0, 0] : Fin 2 → Nat) = fun _ => 0 := funext fun a => by fin_cases a <;> rfl

/-- The body's stored value is the entrywise sum of its two loaded blocks (the casts to the same shape are the identity). -/
theorem add1_pay (x0 x1 : Vec F S10000x64 .f32) : k1_pay1 x0 x1 = addf x0 x1 := by
  unfold k1_pay1
  simp only [shapeCast_self]

/-- The three index maps agree at every point: block row t, block column 0. -/
theorem add1_idx : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2) :=
  (by decide +kernel : ∀ t : Fin grid1.N, _)

/-- Every one of the fifteen block rows is some point's. -/
theorem add1_onto : ∀ q : Fin 15, ∃ t : Fin cfg1.N, win1_2.index t = ![q.val, 0] :=
  (by decide +kernel : ∀ q : Fin 15, ∃ t : Fin grid1.N, win1_2.index t = ![q.val, 0])

/-- What point t writes back is block t of the sum of the two input arrays. -/
theorem add1_flushed (c : Dev nD) (t : Fin cfg1.N) :
    (dat1 V c).flushed 2 t
      = ((cfg1.win 2).blk t).view.read (Elt F) (addf (V c main_v26 : FVec F S150000x64 .f32) (V c main_v37 : FVec F S150000x64 .f32)) := by
  show (cfg1.win 2).cut (grid1.coords t) ((dat1 V c).after 2 t) = _
  rw [after1_2]
  unfold out1_2
  rw [View.canon_unit_zero add1_zero_off]
  simp only [View.ld_unit_zero (S := S10000x64) add1_zero_off]
  rw [add1_pay]
  obtain ⟨e0, e1, e2, e3⟩ := add1_idx t
  funext j
  show FloatOps.addf (V c main_v26 (((cfg1.win 0).blk t).view.emb j)) (V c main_v37 (((cfg1.win 1).blk t).view.emb j))
    = FloatOps.addf (V c main_v26 (((cfg1.win 2).blk t).view.emb j)) (V c main_v37 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 64 + 1 * (j 1).val = win1_2.index t (1 : Fin 2) * 64 + 1 * (j 1).val; omega
  rw [h0, h1]

/-- An index of the output array is in point t's block iff each coordinate is in the block's range on its axis. -/
theorem add1_mem (t : Fin cfg1.N) (i : S150000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v38).slice (win1_2.rect t)).set ↔ _
  rw [View.set_slice_whole, Rect.mem_set_unit]
  exact Iff.rfl

/-- Row r of the output array lies in the block of the point whose block row is r / 10000. -/
theorem add1_cover (i : S150000x64.Idx) :
    ∃ t : Fin cfg1.N, (cfg1.win 2).flush t = true ∧ i ∈ ((cfg1.win 2).blk t).view.set := by
  have hi0 : (i 0).val < 150000 := (i 0).isLt
  have hi1 : (i 1).val < 64 := (i 1).isLt
  obtain ⟨t, ht⟩ := add1_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [add1_mem]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the region: the entrywise sum of the two input arrays as the region found them. -/
theorem add1_array (c : Dev nD) :
    (dat1 V c).arrAt 2 cfg1.N = addf (V c main_v26 : FVec F S150000x64 .f32) (V c main_v37 : FVec F S150000x64 .f32) :=
  (dat1 V c).arrAt_eq_of_cover 2 _ (fun t _ => add1_flushed V c t) (add1_cover)

end Cert.KernelIdeal.RegionValue

end
-- ==== Proof.RegionScale2.lean ====
/-
  Region 2 of the kernel's program scales each row of a [1200000, 64] array (main_v45 as the region finds it: one gathered
  embedding per edge) by that edge's weight, read from a [1200000, 1] column (main_v25), in 75 blocks of 16000 rows: at
  point t the row windows sit on rows 16000·t … 16000·t + 15999, the body broadcasts its [16000, 1] block of weights
  along the 64 columns and stores the entrywise product, and the 75 output blocks tile the output array. So entry
  (e, d) of the output array ends as entry (e, d) of the first array times entry (e, 0) of the column.
-/
import proofs.«174279_j42932493091121_1_alg».proof.Proof.Gen.KernelIdeal.Frame
import proofs.«174279_j42932493091121_1_alg».proof.Proof.EdgeRows
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem scale2_zero_off : (![0, 0] : Fin 2 → Nat) = fun _ => 0 := funext fun a => by fin_cases a <;> rfl

/-- The body's stored value at (r, d): the first block at (r, d) times the weight block at (r, 0) (the casts to the
    same shape are the identity; the broadcast along the columns reads column 0). -/
theorem scale2_pay_apply (x0 : Vec F S16000x64 .f32) (x1 : Vec F S16000x1 .f32) (j : S16000x64.Idx) :
    k2_pay1 x0 x1 j = FloatOps.mulf (x0 j) (x1 (blockCol j)) := by
  unfold k2_pay1
  simp only [shapeCast_self]
  show FloatOps.mulf (x0 j) (broadcastTo S16000x64 x1 broadcasts_S16000x1_S16000x64 j) = _
  rw [broadcastTo_apply x1 broadcasts_S16000x1_S16000x64 j (blockCol j) (fun a => match a with
    | ⟨0, _⟩ => by show (j 0).val = if (16000 : Nat) = 1 then 0 else (j 0).val; rw [if_neg (by decide)]
    | ⟨1, _⟩ => by show 0 = if (1 : Nat) = 1 then 0 else (j 1).val; rw [if_pos rfl])]

/-- The index maps at every point: all three windows on block row t; the row windows on block column 0, and so the column's. -/
theorem scale2_idx : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = 0 :=
  (by decide +kernel : ∀ t : Fin grid2.N, _)

/-- Every one of the 75 block rows is some point's. -/
theorem scale2_onto : ∀ q : Fin 75, ∃ t : Fin cfg2.N, win2_2.index t = ![q.val, 0] :=
  (by decide +kernel : ∀ q : Fin 75, ∃ t : Fin grid2.N, win2_2.index t = ![q.val, 0])

/-- What point t writes back is block t of the scaled rows. -/
theorem scale2_flushed (c : Dev nD) (t : Fin cfg2.N) :
    (dat2 V c).flushed 2 t
      = ((cfg2.win 2).blk t).view.read (Elt F) (scaleRows (V c main_v45) (V c main_v25)) := by
  show (cfg2.win 2).cut (grid2.coords t) ((dat2 V c).after 2 t) = _
  rw [after2_2]
  unfold out2_2
  rw [View.canon_unit_zero scale2_zero_off]
  simp only [View.ld_unit_zero (S := S16000x64) scale2_zero_off, View.ld_unit_zero (S := S16000x1) scale2_zero_off]
  obtain ⟨e0, e1, e2, e3⟩ := scale2_idx t
  funext j
  refine (scale2_pay_apply _ _ j).trans ?_
  show FloatOps.mulf (V c main_v45 (((cfg2.win 0).blk t).view.emb j)) (V c main_v25 (((cfg2.win 1).blk t).view.emb (blockCol j)))
    = FloatOps.mulf (V c main_v45 (((cfg2.win 2).blk t).view.emb j)) (V c main_v25 (edgeCol (((cfg2.win 2).blk t).view.emb j)))
  have h0 : ((cfg2.win 0).blk t).view.emb j = ((cfg2.win 2).blk t).view.emb j := by
    funext a; apply Fin.ext
    match a with
    | ⟨0, _⟩ => show win2_0.index t (0 : Fin 2) * 16000 + 1 * (j 0).val = win2_2.index t (0 : Fin 2) * 16000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (blockCol j) = edgeCol (((cfg2.win 2).blk t).view.emb j) := by
    funext a; apply Fin.ext
    match a with
    | ⟨0, _⟩ => show win2_1.index t (0 : Fin 2) * 16000 + 1 * (j 0).val = win2_2.index t (0 : Fin 2) * 16000 + 1 * (j 0).val; omega
    | ⟨1, _⟩ => show win2_1.index t (1 : Fin 2) * 1 + 1 * 0 = 0; omega
  rw [h0, h1]

/-- An index of the output array is in point t's block iff each coordinate is in the block's range on its axis. -/
theorem scale2_mem (t : Fin cfg2.N) (i : S1200000x64.Idx) :
    i ∈ ((cfg2.win 2).blk t).view.set ↔ ∀ a : Fin 2, win2_2.index t a * S16000x64.size a ≤ (i a).val ∧ (i a).val < win2_2.index t a * S16000x64.size a + S16000x64.size a := by
  show i ∈ ((View.whole main_v46).slice (win2_2.rect t)).set ↔ _
  rw [View.set_slice_whole, Rect.mem_set_unit]
  exact Iff.rfl

/-- Row e of the output array lies in the block of the point whose block row is e / 16000. -/
theorem scale2_cover (i : S1200000x64.Idx) :
    ∃ t : Fin cfg2.N, (cfg2.win 2).flush t = true ∧ i ∈ ((cfg2.win 2).blk t).view.set := by
  have hi0 : (i 0).val < 1200000 := (i 0).isLt
  have hi1 : (i 1).val < 64 := (i 1).isLt
  obtain ⟨t, ht⟩ := scale2_onto ⟨(i 0).val / 16000, by omega⟩
  have q0 : win2_2.index t (0 : Fin 2) = (i 0).val / 16000 := congrFun ht 0
  have q1 : win2_2.index t (1 : Fin 2) = 0 := congrFun ht 1
  refine ⟨t, flush2_2 t, ?_⟩
  rw [scale2_mem]
  intro a
  match a with
  | ⟨0, _⟩ => show win2_2.index t (0 : Fin 2) * 16000 ≤ (i 0).val ∧ (i 0).val < win2_2.index t (0 : Fin 2) * 16000 + 16000; omega
  | ⟨1, _⟩ => show win2_2.index t (1 : Fin 2) * 64 ≤ (i 1).val ∧ (i 1).val < win2_2.index t (1 : Fin 2) * 64 + 64; omega

/-- The output array after the region: the first array's rows scaled by the column's weights, as the region found them. -/
theorem scale2_array (c : Dev nD) :
    (dat2 V c).arrAt 2 cfg2.N = scaleRows (V c main_v45) (V c main_v25) :=
  (dat2 V c).arrAt_eq_of_cover 2 _ (fun t _ => scale2_flushed V c t) (scale2_cover)

end Cert.KernelIdeal.RegionValue

end
-- ==== Proof.RegionAdd3.lean ====
/-
  Region 3 of the kernel's program adds two [150000, 64] arrays (main_v38 and main_v49 as the region finds them) in fifteen
  blocks of 10000 rows: at point t all three windows sit on rows 10000·t … 10000·t + 9999, the body stores the
  entrywise sum of its two input blocks, and the fifteen output blocks tile the output array. So the output array
  ends as the entrywise sum of the two input arrays, whatever they hold.
-/
import proofs.«174279_j42932493091121_1_alg».proof.Proof.Gen.KernelIdeal.Frame
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem add3_zero_off : (![0, 0] : Fin 2 → Nat) = fun _ => 0 := funext fun a => by fin_cases a <;> rfl

/-- The body's stored value is the entrywise sum of its two loaded blocks (the casts to the same shape are the identity). -/
theorem add3_pay (x0 x1 : Vec F S10000x64 .f32) : k3_pay1 x0 x1 = addf x0 x1 := by
  unfold k3_pay1
  simp only [shapeCast_self]

/-- The three index maps agree at every point: block row t, block column 0. -/
theorem add3_idx : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2) :=
  (by decide +kernel : ∀ t : Fin grid3.N, _)

/-- Every one of the fifteen block rows is some point's. -/
theorem add3_onto : ∀ q : Fin 15, ∃ t : Fin cfg3.N, win3_2.index t = ![q.val, 0] :=
  (by decide +kernel : ∀ q : Fin 15, ∃ t : Fin grid3.N, win3_2.index t = ![q.val, 0])

/-- What point t writes back is block t of the sum of the two input arrays. -/
theorem add3_flushed (c : Dev nD) (t : Fin cfg3.N) :
    (dat3 V c).flushed 2 t
      = ((cfg3.win 2).blk t).view.read (Elt F) (addf (V c main_v38 : FVec F S150000x64 .f32) (V c main_v49 : FVec F S150000x64 .f32)) := by
  show (cfg3.win 2).cut (grid3.coords t) ((dat3 V c).after 2 t) = _
  rw [after3_2]
  unfold out3_2
  rw [View.canon_unit_zero add3_zero_off]
  simp only [View.ld_unit_zero (S := S10000x64) add3_zero_off]
  rw [add3_pay]
  obtain ⟨e0, e1, e2, e3⟩ := add3_idx t
  funext j
  show FloatOps.addf (V c main_v38 (((cfg3.win 0).blk t).view.emb j)) (V c main_v49 (((cfg3.win 1).blk t).view.emb j))
    = FloatOps.addf (V c main_v38 (((cfg3.win 2).blk t).view.emb j)) (V c main_v49 (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 10000 + 1 * (j 0).val = win3_2.index t (0 : Fin 2) * 10000 + 1 * (j 0).val; omega
    | ⟨1, _⟩ => show win3_1.index t (1 : Fin 2) * 64 + 1 * (j 1).val = win3_2.index t (1 : Fin 2) * 64 + 1 * (j 1).val; omega
  rw [h0, h1]

/-- An index of the output array is in point t's block iff each coordinate is in the block's range on its axis. -/
theorem add3_mem (t : Fin cfg3.N) (i : S150000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v50).slice (win3_2.rect t)).set ↔ _
  rw [View.set_slice_whole, Rect.mem_set_unit]
  exact Iff.rfl

/-- Row r of the output array lies in the block of the point whose block row is r / 10000. -/
theorem add3_cover (i : S150000x64.Idx) :
    ∃ t : Fin cfg3.N, (cfg3.win 2).flush t = true ∧ i ∈ ((cfg3.win 2).blk t).view.set := by
  have hi0 : (i 0).val < 150000 := (i 0).isLt
  have hi1 : (i 1).val < 64 := (i 1).isLt
  obtain ⟨t, ht⟩ := add3_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [add3_mem]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The output array after the region: the entrywise sum of the two input arrays as the region found them. -/
theorem add3_array (c : Dev nD) :
    (dat3 V c).arrAt 2 cfg3.N = addf (V c main_v38 : FVec F S150000x64 .f32) (V c main_v49 : FVec F S150000x64 .f32) :=
  (dat3 V c).arrAt_eq_of_cover 2 _ (fun t _ => add3_flushed V c t) (add3_cover)

end Cert.KernelIdeal.RegionValue

end
-- ==== Proof.RegionScale4.lean ====
/-
  Region 4 of the kernel's program scales each row of a [1200000, 64] array (main_v57 as the region finds it: one gathered
  embedding per edge) by that edge's weight, read from a [1200000, 1] column (main_v25), in 75 blocks of 16000 rows: at
  point t the row windows sit on rows 16000·t … 16000·t + 15999, the body broadcasts its [16000, 1] block of weights
  along the 64 columns and stores the entrywise product, and the 75 output blocks tile the output array. So entry
  (e, d) of the output array ends as entry (e, d) of the first array times entry (e, 0) of the column.
-/
import proofs.«174279_j42932493091121_1_alg».proof.Proof.Gen.KernelIdeal.Frame
import proofs.«174279_j42932493091121_1_alg».proof.Proof.EdgeRows
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem scale4_zero_off : (![0, 0] : Fin 2 → Nat) = fun _ => 0 := funext fun a => by fin_cases a <;> rfl

/-- The body's stored value at (r, d): the first block at (r, d) times the weight block at (r, 0) (the casts to the
    same shape are the identity; the broadcast along the columns reads column 0). -/
theorem scale4_pay_apply (x0 : Vec F S16000x64 .f32) (x1 : Vec F S16000x1 .f32) (j : S16000x64.Idx) :
    k4_pay1 x0 x1 j = FloatOps.mulf (x0 j) (x1 (blockCol j)) := by
  unfold k4_pay1
  simp only [shapeCast_self]
  show FloatOps.mulf (x0 j) (broadcastTo S16000x64 x1 broadcasts_S16000x1_S16000x64 j) = _
  rw [broadcastTo_apply x1 broadcasts_S16000x1_S16000x64 j (blockCol j) (fun a => match a with
    | ⟨0, _⟩ => by show (j 0).val = if (16000 : Nat) = 1 then 0 else (j 0).val; rw [if_neg (by decide)]
    | ⟨1, _⟩ => by show 0 = if (1 : Nat) = 1 then 0 else (j 1).val; rw [if_pos rfl])]

/-- The index maps at every point: all three windows on block row t; the row windows on block column 0, and so the column's. -/
theorem scale4_idx : ∀ t : Fin cfg4.N, win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = 0 :=
  (by decide +kernel : ∀ t : Fin grid4.N, _)

/-- Every one of the 75 block rows is some point's. -/
theorem scale4_onto : ∀ q : Fin 75, ∃ t : Fin cfg4.N, win4_2.index t = ![q.val, 0] :=
  (by decide +kernel : ∀ q : Fin 75, ∃ t : Fin grid4.N, win4_2.index t = ![q.val, 0])

/-- What point t writes back is block t of the scaled rows. -/
theorem scale4_flushed (c : Dev nD) (t : Fin cfg4.N) :
    (dat4 V c).flushed 2 t
      = ((cfg4.win 2).blk t).view.read (Elt F) (scaleRows (V c main_v57) (V c main_v25)) := by
  show (cfg4.win 2).cut (grid4.coords t) ((dat4 V c).after 2 t) = _
  rw [after4_2]
  unfold out4_2
  rw [View.canon_unit_zero scale4_zero_off]
  simp only [View.ld_unit_zero (S := S16000x64) scale4_zero_off, View.ld_unit_zero (S := S16000x1) scale4_zero_off]
  obtain ⟨e0, e1, e2, e3⟩ := scale4_idx t
  funext j
  refine (scale4_pay_apply _ _ j).trans ?_
  show FloatOps.mulf (V c main_v57 (((cfg4.win 0).blk t).view.emb j)) (V c main_v25 (((cfg4.win 1).blk t).view.emb (blockCol j)))
    = FloatOps.mulf (V c main_v57 (((cfg4.win 2).blk t).view.emb j)) (V c main_v25 (edgeCol (((cfg4.win 2).blk t).view.emb j)))
  have h0 : ((cfg4.win 0).blk t).view.emb j = ((cfg4.win 2).blk t).view.emb j := by
    funext a; apply Fin.ext
    match a with
    | ⟨0, _⟩ => show win4_0.index t (0 : Fin 2) * 16000 + 1 * (j 0).val = win4_2.index t (0 : Fin 2) * 16000 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb (blockCol j) = edgeCol (((cfg4.win 2).blk t).view.emb j) := by
    funext a; apply Fin.ext
    match a with
    | ⟨0, _⟩ => show win4_1.index t (0 : Fin 2) * 16000 + 1 * (j 0).val = win4_2.index t (0 : Fin 2) * 16000 + 1 * (j 0).val; omega
    | ⟨1, _⟩ => show win4_1.index t (1 : Fin 2) * 1 + 1 * 0 = 0; omega
  rw [h0, h1]

/-- An index of the output array is in point t's block iff each coordinate is in the block's range on its axis. -/
theorem scale4_mem (t : Fin cfg4.N) (i : S1200000x64.Idx) :
    i ∈ ((cfg4.win 2).blk t).view.set ↔ ∀ a : Fin 2, win4_2.index t a * S16000x64.size a ≤ (i a).val ∧ (i a).val < win4_2.index t a * S16000x64.size a + S16000x64.size a := by
  show i ∈ ((View.whole main_v58).slice (win4_2.rect t)).set ↔ _
  rw [View.set_slice_whole, Rect.mem_set_unit]
  exact Iff.rfl

/-- Row e of the output array lies in the block of the point whose block row is e / 16000. -/
theorem scale4_cover (i : S1200000x64.Idx) :
    ∃ t : Fin cfg4.N, (cfg4.win 2).flush t = true ∧ i ∈ ((cfg4.win 2).blk t).view.set := by
  have hi0 : (i 0).val < 1200000 := (i 0).isLt
  have hi1 : (i 1).val < 64 := (i 1).isLt
  obtain ⟨t, ht⟩ := scale4_onto ⟨(i 0).val / 16000, by omega⟩
  have q0 : win4_2.index t (0 : Fin 2) = (i 0).val / 16000 := congrFun ht 0
  have q1 : win4_2.index t (1 : Fin 2) = 0 := congrFun ht 1
  refine ⟨t, flush4_2 t, ?_⟩
  rw [scale4_mem]
  intro a
  match a with
  | ⟨0, _⟩ => show win4_2.index t (0 : Fin 2) * 16000 ≤ (i 0).val ∧ (i 0).val < win4_2.index t (0 : Fin 2) * 16000 + 16000; omega
  | ⟨1, _⟩ => show win4_2.index t (1 : Fin 2) * 64 ≤ (i 1).val ∧ (i 1).val < win4_2.index t (1 : Fin 2) * 64 + 64; omega

/-- The output array after the region: the first array's rows scaled by the column's weights, as the region found them. -/
theorem scale4_array (c : Dev nD) :
    (dat4 V c).arrAt 2 cfg4.N = scaleRows (V c main_v57) (V c main_v25) :=
  (dat4 V c).arrAt_eq_of_cover 2 _ (fun t _ => scale4_flushed V c t) (scale4_cover)

end Cert.KernelIdeal.RegionValue

end
-- ==== Proof.RegionAdd5.lean ====
/-
  Region 5 of the kernel's program adds two [150000, 64] arrays (main_v50 and main_v61 as the region finds them) in fifteen
  blocks of 10000 rows: at point t all three windows sit on rows 10000·t … 10000·t + 9999, the body stores the
  entrywise sum of its two input blocks, and the fifteen output blocks tile the output array. So the output array
  ends as the entrywise sum of the two input arrays, whatever they hold.
-/
import proofs.«174279_j42932493091121_1_alg».proof.Proof.Gen.KernelIdeal.Frame
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem add5_zero_off : (![0, 0] : Fin 2 → Nat) = fun _ => 0 := funext fun a => by fin_cases a <;> rfl

/-- The body's stored value is the entrywise sum of its two loaded blocks (the casts to the same shape are the identity). -/
theorem add5_pay (x0 x1 : Vec F S10000x64 .f32) : k5_pay1 x0 x1 = addf x0 x1 := by
  unfold k5_pay1
  simp only [shapeCast_self]

/-- The three index maps agree at every point: block row t, block column 0. -/
theorem add5_idx : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2) :=
  (by decide +kernel : ∀ t : Fin grid5.N, _)

/-- Every one of the fifteen block rows is some point's. -/
theorem add5_onto : ∀ q : Fin 15, ∃ t : Fin cfg5.N, win5_2.index t = ![q.val, 0] :=
  (by decide +kernel : ∀ q : Fin 15, ∃ t : Fin grid5.N, win5_2.index t = ![q.val, 0])

/-- What point t writes back is block t of the sum of the two input arrays. -/
theorem add5_flushed (c : Dev nD) (t : Fin cfg5.N) :
    (dat5 V c).flushed 2 t
      = ((cfg5.win 2).blk t).view.read (Elt F) (addf (V c main_v50 : FVec F S150000x64 .f32) (V c main_v61 : FVec F S150000x64 .f32)) := by
  show (cfg5.win 2).cut (grid5.coords t) ((dat5 V c).after 2 t) = _
  rw [after5_2]
  unfold out5_2
  rw [View.canon_unit_zero add5_zero_off]
  simp only [View.ld_unit_zero (S := S10000x64) add5_zero_off]
  rw [add5_pay]
  obtain ⟨e0, e1, e2, e3⟩ := add5_idx t
  funext j
  show FloatOps.addf (V c main_v50 (((cfg5.win 0).blk t).view.emb j)) (V c main_v61 (((cfg5.win 1).blk t).view.emb j))
    = FloatOps.addf (V c main_v50 (((cfg5.win 2).blk t).view.emb j)) (V c main_v61 (((cfg5.win 2).blk t).view.emb j))
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 10000 + 1 * (j 0).val = win5_2.index t (0 : Fin 2) * 10000 + 1 * (j 0).val; omega
    | ⟨1, _⟩ => show win5_1.index t (1 : Fin 2) * 64 + 1 * (j 1).val = win5_2.index t (1 : Fin 2) * 64 + 1 * (j 1).val; omega
  rw [h0, h1]

/-- An index of the output array is in point t's block iff each coordinate is in the block's range on its axis. -/
theorem add5_mem (t : Fin cfg5.N) (i : S150000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v62).slice (win5_2.rect t)).set ↔ _
  rw [View.set_slice_whole, Rect.mem_set_unit]
  exact Iff.rfl

/-- Row r of the output array lies in the block of the point whose block row is r / 10000. -/
theorem add5_cover (i : S150000x64.Idx) :
    ∃ t : Fin cfg5.N, (cfg5.win 2).flush t = true ∧ i ∈ ((cfg5.win 2).blk t).view.set := by
  have hi0 : (i 0).val < 150000 := (i 0).isLt
  have hi1 : (i 1).val < 64 := (i 1).isLt
  obtain ⟨t, ht⟩ := add5_onto ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [add5_mem]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- The output array after the region: the entrywise sum of the two input arrays as the region found them. -/
theorem add5_array (c : Dev nD) :
    (dat5 V c).arrAt 2 cfg5.N = addf (V c main_v50 : FVec F S150000x64 .f32) (V c main_v61 : FVec F S150000x64 .f32) :=
  (dat5 V c).arrAt_eq_of_cover 2 _ (fun t _ => add5_flushed V c t) (add5_cover)

end Cert.KernelIdeal.RegionValue

end
-- ==== Proof.RegionQuarter6.lean ====
/-
  Region 6 of the kernel's program, the last: a quarter of every entry of a [150000, 64] array (main_v62 as the region
  finds it: the sum of the four layers' embeddings), in fifteen blocks of 10000 rows. At point t both windows sit on
  rows 10000·t … 10000·t + 9999, the body stores its input block times the splat of the word 0x3E800000, and the
  fifteen output blocks tile the output array. So the output array ends as the input array times that splat.
-/
import proofs.«174279_j42932493091121_1_alg».proof.Proof.Gen.KernelIdeal.Frame
import proofs.«174279_j42932493091121_1_alg».proof.Proof.EdgeRows
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem quarter6_zero_off : (![0, 0] : Fin 2 → Nat) = fun _ => 0 := funext fun a => by fin_cases a <;> rfl

/-- The body's stored value at an entry: the loaded block's entry times that scalar (the cast to the same shape is
    the identity; the splat reads the scalar everywhere). -/
theorem quarter6_pay_apply (x0 : Vec F S10000x64 .f32) (j : S10000x64.Idx) :
    k6_pay1 x0 j = FloatOps.mulf (x0 j) (Scalar.ofBits (F := F) .f32 0x3E800000#32) := by
  unfold k6_pay1
  simp only [shapeCast_self]
  rfl

/-- The two index maps agree at every point: block row t, block column 0. -/
theorem quarter6_idx : ∀ t : Fin cfg6.N, win6_0.index t (0 : Fin 2) = win6_1.index t (0 : Fin 2)
    ∧ win6_0.index t (1 : Fin 2) = win6_1.index t (1 : Fin 2) :=
  (by decide +kernel : ∀ t : Fin grid6.N, _)

/-- Every one of the fifteen block rows is some point's. -/
theorem quarter6_onto : ∀ q : Fin 15, ∃ t : Fin cfg6.N, win6_1.index t = ![q.val, 0] :=
  (by decide +kernel : ∀ q : Fin 15, ∃ t : Fin grid6.N, win6_1.index t = ![q.val, 0])

/-- What point t writes back is block t of the quartered input array. -/
theorem quarter6_flushed (c : Dev nD) (t : Fin cfg6.N) :
    (dat6 V c).flushed 1 t = ((cfg6.win 1).blk t).view.read (Elt F) (quarterOf (V c main_v62)) := by
  show (cfg6.win 1).cut (grid6.coords t) ((dat6 V c).after 1 t) = _
  rw [after6_1]
  unfold out6_1
  rw [View.canon_unit_zero quarter6_zero_off]
  simp only [View.ld_unit_zero (S := S10000x64) quarter6_zero_off]
  obtain ⟨e0, e1⟩ := quarter6_idx t
  funext j
  refine (quarter6_pay_apply _ j).trans ?_
  show FloatOps.mulf (V c main_v62 (((cfg6.win 0).blk t).view.emb j)) (Scalar.ofBits (F := F) .f32 0x3E800000#32)
    = FloatOps.mulf (V c main_v62 (((cfg6.win 1).blk t).view.emb j)) (Scalar.ofBits (F := F) .f32 0x3E800000#32)
  have h0 : ((cfg6.win 0).blk t).view.emb j = ((cfg6.win 1).blk t).view.emb j := by
    funext a; apply Fin.ext
    match a with
    | ⟨0, _⟩ => show win6_0.index t (0 : Fin 2) * 10000 + 1 * (j 0).val = win6_1.index t (0 : Fin 2) * 10000 + 1 * (j 0).val; omega
    | ⟨1, _⟩ => show win6_0.index t (1 : Fin 2) * 64 + 1 * (j 1).val = win6_1.index t (1 : Fin 2) * 64 + 1 * (j 1).val; omega
  rw [h0]

/-- An index of the output array is in point t's block iff each coordinate is in the block's range on its axis. -/
theorem quarter6_mem (t : Fin cfg6.N) (i : S150000x64.Idx) :
    i ∈ ((cfg6.win 1).blk t).view.set ↔ ∀ a : Fin 2, win6_1.index t a * S10000x64.size a ≤ (i a).val ∧ (i a).val < win6_1.index t a * S10000x64.size a + S10000x64.size a := by
  show i ∈ ((View.whole main_v63).slice (win6_1.rect t)).set ↔ _
  rw [View.set_slice_whole, Rect.mem_set_unit]
  exact Iff.rfl

/-- Row r of the output array lies in the block of the point whose block row is r / 10000. -/
theorem quarter6_cover (i : S150000x64.Idx) :
    ∃ t : Fin cfg6.N, (cfg6.win 1).flush t = true ∧ i ∈ ((cfg6.win 1).blk t).view.set := by
  have hi0 : (i 0).val < 150000 := (i 0).isLt
  have hi1 : (i 1).val < 64 := (i 1).isLt
  obtain ⟨t, ht⟩ := quarter6_onto ⟨(i 0).val / 10000, by omega⟩
  have q0 : win6_1.index t (0 : Fin 2) = (i 0).val / 10000 := congrFun ht 0
  have q1 : win6_1.index t (1 : Fin 2) = 0 := congrFun ht 1
  refine ⟨t, flush6_1 t, ?_⟩
  rw [quarter6_mem]
  intro a
  match a with
  | ⟨0, _⟩ => show win6_1.index t (0 : Fin 2) * 10000 ≤ (i 0).val ∧ (i 0).val < win6_1.index t (0 : Fin 2) * 10000 + 10000; omega
  | ⟨1, _⟩ => show win6_1.index t (1 : Fin 2) * 64 ≤ (i 1).val ∧ (i 1).val < win6_1.index t (1 : Fin 2) * 64 + 64; omega

/-- The output array after the region: a quarter of the input array as the region found it. -/
theorem quarter6_array (c : Dev nD) : (dat6 V c).arrAt 1 cfg6.N = quarterOf (V c main_v62) :=
  (dat6 V c).arrAt_eq_of_cover 1 _ (fun t _ => quarter6_flushed V c t) (quarter6_cover)

end Cert.KernelIdeal.RegionValue

end
-- ==== Proof.ChainKept.lean ====
/-
  A table: the buffers of the kernel's program that outlive the step that made them, each unchanged across every
  host stretch and every region up to its last reader. A host stretch that writes other buffers leaves a buffer as
  it was; so does a region of which the buffer is no array; and an input array of a region leaves it as it entered.
  What the buffers HOLD is not said here.
-/
import proofs.«174279_j42932493091121_1_alg».proof.Proof.Gen.KernelIdeal.Frame
import Idealize.ShloMosaic.Lib.StableHlo.Run

set_option maxRecDepth 16384

noncomputable section

namespace Cert.KernelIdeal.ChainKept

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg) (c : Dev nD)

/-! ## main_v1: made at boundary 1, last read at boundary 8 -/

theorem kept2_main_v1 : W2 m ρ c (Proc.devRef .tc main_v1) = W1 m ρ c (Proc.devRef .tc main_v1) :=
  W2_of_ne m ρ c main_v1 (by decide)

theorem keptTo2_main_v1 : W2 m ρ c (Proc.devRef .tc main_v1) = W1 m ρ c (Proc.devRef .tc main_v1) :=
  kept2_main_v1 m ρ c

theorem kept3_main_v1 : W3 m ρ c (Proc.devRef .tc main_v1) = W2 m ρ c (Proc.devRef .tc main_v1) := by
  show StableHlo.after hostOps1 (W2 m ρ c) (Proc.devRef .tc main_v1) = _
  after_results_simp

theorem keptTo3_main_v1 : W3 m ρ c (Proc.devRef .tc main_v1) = W1 m ρ c (Proc.devRef .tc main_v1) :=
  (kept3_main_v1 m ρ c).trans (keptTo2_main_v1 m ρ c)

theorem kept4_main_v1 : W4 m ρ c (Proc.devRef .tc main_v1) = W3 m ρ c (Proc.devRef .tc main_v1) :=
  W4_of_ne m ρ c main_v1 (by decide)

theorem keptTo4_main_v1 : W4 m ρ c (Proc.devRef .tc main_v1) = W1 m ρ c (Proc.devRef .tc main_v1) :=
  (kept4_main_v1 m ρ c).trans (keptTo3_main_v1 m ρ c)

theorem kept5_main_v1 : W5 m ρ c (Proc.devRef .tc main_v1) = W4 m ρ c (Proc.devRef .tc main_v1) := by
  show StableHlo.after hostOps2 (W4 m ρ c) (Proc.devRef .tc main_v1) = _
  after_results_simp

theorem keptTo5_main_v1 : W5 m ρ c (Proc.devRef .tc main_v1) = W1 m ρ c (Proc.devRef .tc main_v1) :=
  (kept5_main_v1 m ρ c).trans (keptTo4_main_v1 m ρ c)

theorem kept6_main_v1 : W6 m ρ c (Proc.devRef .tc main_v1) = W5 m ρ c (Proc.devRef .tc main_v1) :=
  W6_of_ne m ρ c main_v1 (by decide)

theorem keptTo6_main_v1 : W6 m ρ c (Proc.devRef .tc main_v1) = W1 m ρ c (Proc.devRef .tc main_v1) :=
  (kept6_main_v1 m ρ c).trans (keptTo5_main_v1 m ρ c)

theorem kept7_main_v1 : W7 m ρ c (Proc.devRef .tc main_v1) = W6 m ρ c (Proc.devRef .tc main_v1) := by
  show StableHlo.after hostOps3 (W6 m ρ c) (Proc.devRef .tc main_v1) = _
  after_results_simp

theorem keptTo7_main_v1 : W7 m ρ c (Proc.devRef .tc main_v1) = W1 m ρ c (Proc.devRef .tc main_v1) :=
  (kept7_main_v1 m ρ c).trans (keptTo6_main_v1 m ρ c)

theorem kept8_main_v1 : W8 m ρ c (Proc.devRef .tc main_v1) = W7 m ρ c (Proc.devRef .tc main_v1) :=
  W8_of_ne m ρ c main_v1 (by decide)

theorem keptTo8_main_v1 : W8 m ρ c (Proc.devRef .tc main_v1) = W1 m ρ c (Proc.devRef .tc main_v1) :=
  (kept8_main_v1 m ρ c).trans (keptTo7_main_v1 m ρ c)

/-! ## main_v3: made at boundary 1, last read at boundary 10 -/

theorem kept2_main_v3 : W2 m ρ c (Proc.devRef .tc main_v3) = W1 m ρ c (Proc.devRef .tc main_v3) :=
  W2_of_ne m ρ c main_v3 (by decide)

theorem keptTo2_main_v3 : W2 m ρ c (Proc.devRef .tc main_v3) = W1 m ρ c (Proc.devRef .tc main_v3) :=
  kept2_main_v3 m ρ c

theorem kept3_main_v3 : W3 m ρ c (Proc.devRef .tc main_v3) = W2 m ρ c (Proc.devRef .tc main_v3) := by
  show StableHlo.after hostOps1 (W2 m ρ c) (Proc.devRef .tc main_v3) = _
  after_results_simp

theorem keptTo3_main_v3 : W3 m ρ c (Proc.devRef .tc main_v3) = W1 m ρ c (Proc.devRef .tc main_v3) :=
  (kept3_main_v3 m ρ c).trans (keptTo2_main_v3 m ρ c)

theorem kept4_main_v3 : W4 m ρ c (Proc.devRef .tc main_v3) = W3 m ρ c (Proc.devRef .tc main_v3) :=
  W4_of_ne m ρ c main_v3 (by decide)

theorem keptTo4_main_v3 : W4 m ρ c (Proc.devRef .tc main_v3) = W1 m ρ c (Proc.devRef .tc main_v3) :=
  (kept4_main_v3 m ρ c).trans (keptTo3_main_v3 m ρ c)

theorem kept5_main_v3 : W5 m ρ c (Proc.devRef .tc main_v3) = W4 m ρ c (Proc.devRef .tc main_v3) := by
  show StableHlo.after hostOps2 (W4 m ρ c) (Proc.devRef .tc main_v3) = _
  after_results_simp

theorem keptTo5_main_v3 : W5 m ρ c (Proc.devRef .tc main_v3) = W1 m ρ c (Proc.devRef .tc main_v3) :=
  (kept5_main_v3 m ρ c).trans (keptTo4_main_v3 m ρ c)

theorem kept6_main_v3 : W6 m ρ c (Proc.devRef .tc main_v3) = W5 m ρ c (Proc.devRef .tc main_v3) :=
  W6_of_ne m ρ c main_v3 (by decide)

theorem keptTo6_main_v3 : W6 m ρ c (Proc.devRef .tc main_v3) = W1 m ρ c (Proc.devRef .tc main_v3) :=
  (kept6_main_v3 m ρ c).trans (keptTo5_main_v3 m ρ c)

theorem kept7_main_v3 : W7 m ρ c (Proc.devRef .tc main_v3) = W6 m ρ c (Proc.devRef .tc main_v3) := by
  show StableHlo.after hostOps3 (W6 m ρ c) (Proc.devRef .tc main_v3) = _
  after_results_simp

theorem keptTo7_main_v3 : W7 m ρ c (Proc.devRef .tc main_v3) = W1 m ρ c (Proc.devRef .tc main_v3) :=
  (kept7_main_v3 m ρ c).trans (keptTo6_main_v3 m ρ c)

theorem kept8_main_v3 : W8 m ρ c (Proc.devRef .tc main_v3) = W7 m ρ c (Proc.devRef .tc main_v3) :=
  W8_of_ne m ρ c main_v3 (by decide)

theorem keptTo8_main_v3 : W8 m ρ c (Proc.devRef .tc main_v3) = W1 m ρ c (Proc.devRef .tc main_v3) :=
  (kept8_main_v3 m ρ c).trans (keptTo7_main_v3 m ρ c)

theorem kept9_main_v3 : W9 m ρ c (Proc.devRef .tc main_v3) = W8 m ρ c (Proc.devRef .tc main_v3) := by
  show StableHlo.after hostOps4 (W8 m ρ c) (Proc.devRef .tc main_v3) = _
  after_results_simp

theorem keptTo9_main_v3 : W9 m ρ c (Proc.devRef .tc main_v3) = W1 m ρ c (Proc.devRef .tc main_v3) :=
  (kept9_main_v3 m ρ c).trans (keptTo8_main_v3 m ρ c)

theorem kept10_main_v3 : W10 m ρ c (Proc.devRef .tc main_v3) = W9 m ρ c (Proc.devRef .tc main_v3) :=
  W10_of_ne m ρ c main_v3 (by decide)

theorem keptTo10_main_v3 : W10 m ρ c (Proc.devRef .tc main_v3) = W1 m ρ c (Proc.devRef .tc main_v3) :=
  (kept10_main_v3 m ρ c).trans (keptTo9_main_v3 m ρ c)

/-! ## main_v25: made at boundary 1, last read at boundary 9 -/

theorem kept2_main_v25 : W2 m ρ c (Proc.devRef .tc main_v25) = W1 m ρ c (Proc.devRef .tc main_v25) :=
  (W2_arr m ρ c 1).trans (((dat0 (V1 m ρ) c).arrAt_in 1 rfl _).trans (A_eq0 (V1 m ρ) c 1))

theorem keptTo2_main_v25 : W2 m ρ c (Proc.devRef .tc main_v25) = W1 m ρ c (Proc.devRef .tc main_v25) :=
  kept2_main_v25 m ρ c

theorem kept3_main_v25 : W3 m ρ c (Proc.devRef .tc main_v25) = W2 m ρ c (Proc.devRef .tc main_v25) := by
  show StableHlo.after hostOps1 (W2 m ρ c) (Proc.devRef .tc main_v25) = _
  after_results_simp

theorem keptTo3_main_v25 : W3 m ρ c (Proc.devRef .tc main_v25) = W1 m ρ c (Proc.devRef .tc main_v25) :=
  (kept3_main_v25 m ρ c).trans (keptTo2_main_v25 m ρ c)

theorem kept4_main_v25 : W4 m ρ c (Proc.devRef .tc main_v25) = W3 m ρ c (Proc.devRef .tc main_v25) :=
  W4_of_ne m ρ c main_v25 (by decide)

theorem keptTo4_main_v25 : W4 m ρ c (Proc.devRef .tc main_v25) = W1 m ρ c (Proc.devRef .tc main_v25) :=
  (kept4_main_v25 m ρ c).trans (keptTo3_main_v25 m ρ c)

theorem kept5_main_v25 : W5 m ρ c (Proc.devRef .tc main_v25) = W4 m ρ c (Proc.devRef .tc main_v25) := by
  show StableHlo.after hostOps2 (W4 m ρ c) (Proc.devRef .tc main_v25) = _
  after_results_simp

theorem keptTo5_main_v25 : W5 m ρ c (Proc.devRef .tc main_v25) = W1 m ρ c (Proc.devRef .tc main_v25) :=
  (kept5_main_v25 m ρ c).trans (keptTo4_main_v25 m ρ c)

theorem kept6_main_v25 : W6 m ρ c (Proc.devRef .tc main_v25) = W5 m ρ c (Proc.devRef .tc main_v25) :=
  (W6_arr m ρ c 1).trans (((dat2 (V5 m ρ) c).arrAt_in 1 rfl _).trans (A_eq2 (V5 m ρ) c 1))

theorem keptTo6_main_v25 : W6 m ρ c (Proc.devRef .tc main_v25) = W1 m ρ c (Proc.devRef .tc main_v25) :=
  (kept6_main_v25 m ρ c).trans (keptTo5_main_v25 m ρ c)

theorem kept7_main_v25 : W7 m ρ c (Proc.devRef .tc main_v25) = W6 m ρ c (Proc.devRef .tc main_v25) := by
  show StableHlo.after hostOps3 (W6 m ρ c) (Proc.devRef .tc main_v25) = _
  after_results_simp

theorem keptTo7_main_v25 : W7 m ρ c (Proc.devRef .tc main_v25) = W1 m ρ c (Proc.devRef .tc main_v25) :=
  (kept7_main_v25 m ρ c).trans (keptTo6_main_v25 m ρ c)

theorem kept8_main_v25 : W8 m ρ c (Proc.devRef .tc main_v25) = W7 m ρ c (Proc.devRef .tc main_v25) :=
  W8_of_ne m ρ c main_v25 (by decide)

theorem keptTo8_main_v25 : W8 m ρ c (Proc.devRef .tc main_v25) = W1 m ρ c (Proc.devRef .tc main_v25) :=
  (kept8_main_v25 m ρ c).trans (keptTo7_main_v25 m ρ c)

theorem kept9_main_v25 : W9 m ρ c (Proc.devRef .tc main_v25) = W8 m ρ c (Proc.devRef .tc main_v25) := by
  show StableHlo.after hostOps4 (W8 m ρ c) (Proc.devRef .tc main_v25) = _
  after_results_simp

theorem keptTo9_main_v25 : W9 m ρ c (Proc.devRef .tc main_v25) = W1 m ρ c (Proc.devRef .tc main_v25) :=
  (kept9_main_v25 m ρ c).trans (keptTo8_main_v25 m ρ c)

/-! ## main_v26: made at boundary 1, last read at boundary 3 -/

theorem kept2_main_v26 : W2 m ρ c (Proc.devRef .tc main_v26) = W1 m ρ c (Proc.devRef .tc main_v26) :=
  W2_of_ne m ρ c main_v26 (by decide)

theorem keptTo2_main_v26 : W2 m ρ c (Proc.devRef .tc main_v26) = W1 m ρ c (Proc.devRef .tc main_v26) :=
  kept2_main_v26 m ρ c

theorem kept3_main_v26 : W3 m ρ c (Proc.devRef .tc main_v26) = W2 m ρ c (Proc.devRef .tc main_v26) := by
  show StableHlo.after hostOps1 (W2 m ρ c) (Proc.devRef .tc main_v26) = _
  after_results_simp

theorem keptTo3_main_v26 : W3 m ρ c (Proc.devRef .tc main_v26) = W1 m ρ c (Proc.devRef .tc main_v26) :=
  (kept3_main_v26 m ρ c).trans (keptTo2_main_v26 m ρ c)

/-! ## main_v37: made at boundary 3, last read at boundary 4 -/

theorem kept4_main_v37 : W4 m ρ c (Proc.devRef .tc main_v37) = W3 m ρ c (Proc.devRef .tc main_v37) :=
  (W4_arr m ρ c 1).trans (((dat1 (V3 m ρ) c).arrAt_in 1 rfl _).trans (A_eq1 (V3 m ρ) c 1))

theorem keptTo4_main_v37 : W4 m ρ c (Proc.devRef .tc main_v37) = W3 m ρ c (Proc.devRef .tc main_v37) :=
  kept4_main_v37 m ρ c

/-! ## main_v38: made at boundary 4, last read at boundary 7 -/

theorem kept5_main_v38 : W5 m ρ c (Proc.devRef .tc main_v38) = W4 m ρ c (Proc.devRef .tc main_v38) := by
  show StableHlo.after hostOps2 (W4 m ρ c) (Proc.devRef .tc main_v38) = _
  after_results_simp

theorem keptTo5_main_v38 : W5 m ρ c (Proc.devRef .tc main_v38) = W4 m ρ c (Proc.devRef .tc main_v38) :=
  kept5_main_v38 m ρ c

theorem kept6_main_v38 : W6 m ρ c (Proc.devRef .tc main_v38) = W5 m ρ c (Proc.devRef .tc main_v38) :=
  W6_of_ne m ρ c main_v38 (by decide)

theorem keptTo6_main_v38 : W6 m ρ c (Proc.devRef .tc main_v38) = W4 m ρ c (Proc.devRef .tc main_v38) :=
  (kept6_main_v38 m ρ c).trans (keptTo5_main_v38 m ρ c)

theorem kept7_main_v38 : W7 m ρ c (Proc.devRef .tc main_v38) = W6 m ρ c (Proc.devRef .tc main_v38) := by
  show StableHlo.after hostOps3 (W6 m ρ c) (Proc.devRef .tc main_v38) = _
  after_results_simp

theorem keptTo7_main_v38 : W7 m ρ c (Proc.devRef .tc main_v38) = W4 m ρ c (Proc.devRef .tc main_v38) :=
  (kept7_main_v38 m ρ c).trans (keptTo6_main_v38 m ρ c)

/-! ## main_v49: made at boundary 7, last read at boundary 8 -/

theorem kept8_main_v49 : W8 m ρ c (Proc.devRef .tc main_v49) = W7 m ρ c (Proc.devRef .tc main_v49) :=
  (W8_arr m ρ c 1).trans (((dat3 (V7 m ρ) c).arrAt_in 1 rfl _).trans (A_eq3 (V7 m ρ) c 1))

theorem keptTo8_main_v49 : W8 m ρ c (Proc.devRef .tc main_v49) = W7 m ρ c (Proc.devRef .tc main_v49) :=
  kept8_main_v49 m ρ c

/-! ## main_v50: made at boundary 8, last read at boundary 11 -/

theorem kept9_main_v50 : W9 m ρ c (Proc.devRef .tc main_v50) = W8 m ρ c (Proc.devRef .tc main_v50) := by
  show StableHlo.after hostOps4 (W8 m ρ c) (Proc.devRef .tc main_v50) = _
  after_results_simp

theorem keptTo9_main_v50 : W9 m ρ c (Proc.devRef .tc main_v50) = W8 m ρ c (Proc.devRef .tc main_v50) :=
  kept9_main_v50 m ρ c

theorem kept10_main_v50 : W10 m ρ c (Proc.devRef .tc main_v50) = W9 m ρ c (Proc.devRef .tc main_v50) :=
  W10_of_ne m ρ c main_v50 (by decide)

theorem keptTo10_main_v50 : W10 m ρ c (Proc.devRef .tc main_v50) = W8 m ρ c (Proc.devRef .tc main_v50) :=
  (kept10_main_v50 m ρ c).trans (keptTo9_main_v50 m ρ c)

theorem kept11_main_v50 : W11 m ρ c (Proc.devRef .tc main_v50) = W10 m ρ c (Proc.devRef .tc main_v50) := by
  show StableHlo.after hostOps5 (W10 m ρ c) (Proc.devRef .tc main_v50) = _
  after_results_simp

theorem keptTo11_main_v50 : W11 m ρ c (Proc.devRef .tc main_v50) = W8 m ρ c (Proc.devRef .tc main_v50) :=
  (kept11_main_v50 m ρ c).trans (keptTo10_main_v50 m ρ c)

end Cert.KernelIdeal.ChainKept

end
-- ==== Proof.LibScaleLaws.lean ====
/-
  Two laws of the extended reals for arrays of any shape, at the ideal instance (a float an extended real, every
  operation the exact one). They import no program.

  A QUARTER AGAINST A QUOTIENT BY FOUR. The f32 word 0x3E800000 denotes the real 1/4 and the word 0x40800000 the real
  4. On EVERY extended real, the infinities included, the quotient by the real 4 is the product with the real 1/4
  (`Ideal.div_coe`): `mul_quarter_eq_div_four` on one entry, `scale_quarter_eq_div_four` for a whole array — the
  entrywise product with the splat of the scalar 0x3E800000 (a kernel's `x * 0.25`) is the host's quotient by the
  broadcast of the constant 0x40800000 (a reference's `x / 4`), with no finiteness asked of `x`.
  ORDER OF A PRODUCT. `mulf_comm`: the entrywise product of two arrays does not depend on the order of its factors.
-/
import Idealize.ShloMosaic.PureOps.Ideal
import Idealize.ShloMosaic.PureOps.Ideal.Laws

noncomputable section

namespace Cert.LibScaleLaws

open Idealize.ShloMosaic

/-- The word 0x3E800000 denotes the real 1/4. -/
theorem quarter : Ideal.ofBits .f32 0x3E800000#32 = ((1 / 4 : ℝ) : EReal) := by
  simp [Ideal.ofBits, Ideal.ieee, -EReal.coe_mul]; norm_num

/-- The word 0x40800000 denotes the real 4. -/
theorem four : Ideal.ofBits .f32 0x40800000#32 = ((4 : ℝ) : EReal) := by
  simp [Ideal.ofBits, Ideal.ieee, -EReal.coe_mul]; norm_num

/-- A quarter of an extended real is its quotient by four. -/
theorem mul_quarter_eq_div_four (x : EReal) :
    x * Ideal.ofBits .f32 0x3E800000#32 = Ideal.div x (Ideal.ofBits .f32 0x40800000#32) := by
  rw [quarter, four, Ideal.div_coe (by norm_num : (4 : ℝ) ≠ 0)]

/-- The same over a whole array: the product with the splat of 1/4 is the host's quotient by the broadcast of 4. -/
theorem scale_quarter_eq_div_four {S : Shape} (h : (⟨0, ![]⟩ : Shape).BroadcastsInDim S (![] : Fin 0 → Fin S.rank))
    (x : FVec Ideal S .f32) :
    mulf x (broadcast S (Scalar.ofBits (F := Ideal) .f32 0x3E800000#32))
      = Host.divf x (broadcastInDim S ![] h (constant (F := Ideal) (⟨0, ![]⟩ : Shape) .f32 0x40800000#32)) := by
  funext i
  simp only [mulf, Host.divf, broadcast, broadcastInDim, constant, Scalar.ofBits, Ideal.mulf_def, Ideal.hostDivf_def,
    Ideal.ofBits_def]
  exact mul_quarter_eq_div_four _

/-- The product of two arrays, entry by entry, does not depend on the order of its factors. -/
theorem mulf_comm {S : Shape} (a b : FVec Ideal S .f32) : mulf a b = mulf b a := by
  funext i
  simp only [mulf, Ideal.mulf_def]
  exact mul_comm _ _

end Cert.LibScaleLaws

end
-- ==== Proof.LayerBridge.lean ====
/-
  The kernel's two region functions, read at the extended reals, are the reference's stages.

  A message region scales row e of the gathered embeddings by entry (e, 0) of the weight column, which the kernel's
  program makes by reshaping the [1200000] vector of edge weights to [1200000, 1]; the reference broadcasts the same
  vector to [1200000, 1] and on to [1200000, 64] and multiplies THAT by the gathered embeddings. Entry (e, 0) of the
  reshaped vector and entry (e, d) of the twice-broadcast one are both entry e of the vector, and the product of two
  extended reals does not depend on their order: the two arrays are equal.
  The last region takes a quarter of each entry where the reference divides each entry by four: equal on every
  extended real, the infinities included.
-/
import proofs.«174279_j42932493091121_1_alg».proof.Proof.EdgeRows
import proofs.«174279_j42932493091121_1_alg».proof.Proof.LibScaleLaws
import proofs.«174279_j42932493091121_1_alg».proof.Proof.Gen.ReferenceIdeal.Read
import Idealize.ShloMosaic.Lib.Pipeline.Value

noncomputable section

namespace Cert.KernelIdeal.Bridge

open Cert.KernelIdeal Cert.KernelIdeal.RegionValue Idealize.ShloMosaic
open Cert.ReferenceIdeal.Read (val_main_v24 val_main_v26 val_main_v34 val_main_v40 val_main_v48 val_main_v54 val_main_v62
  val_main_v68 val_main_cst_14 idx_main_v26 idx_main_v34 val_main_v26_apply val_main_v34_apply)

variable (x2 : (⟨S2x1200000, .i32⟩ : BufTy).Contents (Elt Ideal))

/-- The reference broadcasts the edge weights afresh in each layer; the three broadcasts are one array. -/
theorem weights_layer2 : val_main_v48 (F := Ideal) x2 = val_main_v34 (F := Ideal) x2 := rfl
theorem weights_layer3 : val_main_v62 (F := Ideal) x2 = val_main_v34 (F := Ideal) x2 := rfl

/-- Entry (e, d) of an edge array finds its weight at row e, and row e of the one-column arrays at entry e of the vector. -/
def weightAt (i : S1200000x64.Idx) : S1200000.Idx := fun a => match a with
  | ⟨0, _⟩ => ⟨(i 0).val, (i 0).isLt⟩

/-- For ANY vector `n` of edge weights: the rows of `g` scaled by `n` reshaped to one column are `n`, broadcast to one
    column and on to 64, times `g`. Entry (e, 0) of the reshaped vector and entry (e, d) of the twice-broadcast one are
    both entry e of `n`; the product of two extended reals does not depend on their order. (Stated over a variable
    vector: nothing of how the weights were computed is looked at.) -/
theorem scaleRows_comm (g : FVec Ideal S1200000x64 .f32) (n : FVec Ideal S1200000 .f32) (h : S1200000.ShapeCasts S1200000x1)
    (hb1 : S1200000.BroadcastsInDim S1200000x1 (![0] : Fin 1 → Fin S1200000x1.rank))
    (hb2 : S1200000x1.BroadcastsInDim S1200000x64 (![0, 1] : Fin 2 → Fin S1200000x64.rank)) :
    scaleRows g (shapeCast S1200000x1 n h)
      = mulf (broadcastInDim S1200000x64 ![0, 1] hb2 (broadcastInDim S1200000x1 ![0] hb1 n)) g := by
  funext i
  have hl : shapeCast S1200000x1 n h (edgeCol i) = n (weightAt i) :=
    shapeCast_apply n h (edgeCol i) (weightAt i) (by
      rw [Shape.rowMajor_val_one, Shape.rowMajor_val_two]
      show (i 0).val = (i 0).val * 1 + 0
      omega)
  have hr1 : broadcastInDim S1200000x64 ![0, 1] hb2 (broadcastInDim S1200000x1 ![0] hb1 n) i
      = broadcastInDim S1200000x1 ![0] hb1 n (edgeCol i) :=
    broadcastInDim_apply _ hb2 _ i (edgeCol i) (fun a => match a with
      | ⟨0, _⟩ => by show (i 0).val = if (1200000 : Nat) = 1 then 0 else (i 0).val; rw [if_neg (by decide)]
      | ⟨1, _⟩ => by show 0 = if (1 : Nat) = 1 then 0 else (i 1).val; rw [if_pos rfl])
  have hr2 : broadcastInDim S1200000x1 ![0] hb1 n (edgeCol i) = n (weightAt i) :=
    broadcastInDim_apply _ hb1 n (edgeCol i) (weightAt i) (fun a => match a with
      | ⟨0, _⟩ => by show (i 0).val = if (1200000 : Nat) = 1 then 0 else (i 0).val; rw [if_neg (by decide)])
  show FloatOps.mulf (g i) (shapeCast S1200000x1 n h (edgeCol i))
    = FloatOps.mulf (broadcastInDim S1200000x64 ![0, 1] hb2 (broadcastInDim S1200000x1 ![0] hb1 n) i) (g i)
  rw [hl, hr1, hr2]
  generalize g i = p
  generalize n (weightAt i) = q
  simp only [Ideal.mulf_def]
  exact mul_comm p q

/-- The same at the reference's weight vector: its broadcast weights are those two broadcasts of it. -/
theorem scaleRows_eq (g : FVec Ideal S1200000x64 .f32) (h : S1200000.ShapeCasts S1200000x1) :
    scaleRows g (shapeCast S1200000x1 (val_main_v24 (F := Ideal) x2) h) = mulf (val_main_v34 (F := Ideal) x2) g :=
  scaleRows_comm g (val_main_v24 (F := Ideal) x2) h _ _

/-- A quarter of each entry is the reference's quotient by the broadcast of four. -/
theorem quarterOf_eq (x : FVec Ideal S150000x64 .f32) : quarterOf x = Host.divf x (val_main_v68 (F := Ideal)) :=
  Cert.LibScaleLaws.scale_quarter_eq_div_four _ x

end Cert.KernelIdeal.Bridge

end
-- ==== Proof.Chain.lean ====
/-
  The kernel's program followed from its launch to its return, at the extended reals: what each buffer a later step
  reads holds when that step reads it, as one of the reference's own stages of the three launched argument arrays.

  The host stretches of the two programs are the same operations on the same operands (the degree count, the power
  -1/2, the two gathers and their product; the concatenated embeddings; per layer a gather by the source index and a
  scatter-add at the target index), so a stretch's result is the reference's stage as soon as its operands are. The
  regions differ from the reference's host arithmetic in two places only, which Proof/LayerBridge.lean joins: the
  scaled rows against the reference's product in the other order, and the last region's quarter against its quotient
  by four. That a buffer outlives the steps between its maker and its reader is Proof/ChainKept.lean's table.
-/
import proofs.«174279_j42932493091121_1_alg».proof.Proof.Gen.KernelIdeal.Frame
import proofs.«174279_j42932493091121_1_alg».proof.Proof.Gen.ReferenceIdeal.Read
import proofs.«174279_j42932493091121_1_alg».proof.Proof.RegionScale0
import proofs.«174279_j42932493091121_1_alg».proof.Proof.RegionAdd1
import proofs.«174279_j42932493091121_1_alg».proof.Proof.RegionScale2
import proofs.«174279_j42932493091121_1_alg».proof.Proof.RegionAdd3
import proofs.«174279_j42932493091121_1_alg».proof.Proof.RegionScale4
import proofs.«174279_j42932493091121_1_alg».proof.Proof.RegionAdd5
import proofs.«174279_j42932493091121_1_alg».proof.Proof.RegionQuarter6
import proofs.«174279_j42932493091121_1_alg».proof.Proof.ChainKept
import proofs.«174279_j42932493091121_1_alg».proof.Proof.LayerBridge
import Idealize.ShloMosaic.Lib.StableHlo.Run

set_option maxRecDepth 16384

noncomputable section

namespace Cert.KernelIdeal.Chain

open Cert.KernelIdeal Cert.KernelIdeal.Gen Cert.KernelIdeal.RegionValue Cert.KernelIdeal.ChainKept
open Idealize.ShloMosaic Idealize.ShloMosaic.TcCoe Idealize.SL.Sem Idealize.ShloMosaic.StableHlo
open Idealize.ShloMosaic.Pipeline (Dat)
open Cert.ReferenceIdeal.Read (val_main_v1 val_main_v3 val_main_v24 val_main_v25 val_main_v33 val_main_v34 val_main_v35
  val_main_v38 val_main_v39 val_main_v47 val_main_v48 val_main_v49 val_main_v52 val_main_v53 val_main_v61 val_main_v62
  val_main_v63 val_main_v66 val_main_v67 val_main_v68 val_main_v69)

variable (m : (ℓ : Loc nD τ sig) → Buf (Elt Ideal) ℓ) (ρ : Dev nD → PrngReg) (c : Dev nD)

/-- The three argument arrays as launched: the user embeddings, the item embeddings, the edge list. -/
abbrev a0 := m ((c.tc : Thread nD τ).loc main_arg0)
abbrev a1 := m ((c.tc : Thread nD τ).loc main_arg1)
abbrev a2 := m ((c.tc : Thread nD τ).loc main_arg2)

/-! ## The first host stretch: the indices, the weights, the layer-0 embeddings and their gather -/

set_option maxHeartbeats 8000000 in
/-- The source index of every edge. -/
theorem row1 : W1 m ρ c (Proc.devRef .tc main_v1) = val_main_v1 (F := Ideal) (a2 m c) := by
  show StableHlo.after hostOps0 (W0 m ρ c) (Proc.devRef .tc main_v1) = _
  after_results_simp
  rfl

set_option maxHeartbeats 8000000 in
/-- The target index of every edge. -/
theorem col1 : W1 m ρ c (Proc.devRef .tc main_v3) = val_main_v3 (F := Ideal) (a2 m c) := by
  show StableHlo.after hostOps0 (W0 m ρ c) (Proc.devRef .tc main_v3) = _
  after_results_simp
  rfl

set_option maxHeartbeats 8000000 in
/-- The edge weights as one column: the reference's weight vector, reshaped. -/
theorem wcol1 : W1 m ρ c (Proc.devRef .tc main_v25)
    = shapeCast S1200000x1 (val_main_v24 (F := Ideal) (a2 m c)) Facts₀.shapeCasts_S1200000_S1200000x1 := by
  show StableHlo.after hostOps0 (W0 m ρ c) (Proc.devRef .tc main_v25) = _
  after_results_simp
  rfl

set_option maxHeartbeats 8000000 in
/-- The layer-0 embeddings: users over items. -/
theorem emb1 : W1 m ρ c (Proc.devRef .tc main_v26) = val_main_v25 (F := Ideal) (a0 m c) (a1 m c) := by
  show StableHlo.after hostOps0 (W0 m ρ c) (Proc.devRef .tc main_v26) = _
  after_results_simp
  rfl

set_option maxHeartbeats 8000000 in
/-- The layer-0 embeddings gathered by source index. -/
theorem gathered1 : W1 m ρ c (Proc.devRef .tc main_v33) = val_main_v33 (F := Ideal) (a0 m c) (a1 m c) (a2 m c) := by
  show StableHlo.after hostOps0 (W0 m ρ c) (Proc.devRef .tc main_v33) = _
  after_results_simp
  rfl

/-- The same two facts in the spelling region 0's proof data read its entry contents in. -/
theorem gathered1_entry : V1 m ρ c main_v33 = val_main_v33 (F := Ideal) (a0 m c) (a1 m c) (a2 m c) := gathered1 m ρ c
theorem wcol1_entry : V1 m ρ c main_v25 = shapeCast S1200000x1 (val_main_v24 (F := Ideal) (a2 m c)) Facts₀.shapeCasts_S1200000_S1200000x1 := wcol1 m ρ c

/-! ## Layer 1 -/

/-- Region 0 leaves the layer-1 messages: the gathered rows scaled by the weights, which is the reference's product. -/
theorem msg2 : W2 m ρ c (Proc.devRef .tc main_v34) = val_main_v35 (F := Ideal) (a0 m c) (a1 m c) (a2 m c) := by
  refine (W2_arr m ρ c 2).trans ((scale0_array (V1 m ρ) c).trans ?_)
  rw [gathered1_entry, wcol1_entry]
  exact Bridge.scaleRows_eq _ _ _

/-- The second host stretch scatters them at the target index: the layer-1 embeddings. -/
theorem agg3 : W3 m ρ c (Proc.devRef .tc main_v37) = val_main_v38 (F := Ideal) (a0 m c) (a1 m c) (a2 m c) := by
  show StableHlo.after hostOps1 (W2 m ρ c) (Proc.devRef .tc main_v37) = _
  after_results_simp
  rw [(keptTo2_main_v3 m ρ c).trans (col1 m ρ c), msg2]
  rfl

/-- Region 1's two input arrays as it finds them. -/
theorem emb3_entry : V3 m ρ c main_v26 = val_main_v25 (F := Ideal) (a0 m c) (a1 m c) :=
  (keptTo3_main_v26 m ρ c).trans (emb1 m ρ c)
theorem agg3_entry : V3 m ρ c main_v37 = val_main_v38 (F := Ideal) (a0 m c) (a1 m c) (a2 m c) := agg3 m ρ c

/-- Region 1 adds them to the layer-0 embeddings. -/
theorem acc4 : W4 m ρ c (Proc.devRef .tc main_v38) = val_main_v39 (F := Ideal) (a0 m c) (a1 m c) (a2 m c) := by
  refine (W4_arr m ρ c 2).trans ((add1_array (V3 m ρ) c).trans ?_)
  rw [emb3_entry, agg3_entry]
  rfl

/-! ## Layer 2 -/

/-- The third host stretch gathers the layer-1 embeddings by source index. -/
theorem gathered5 : W5 m ρ c (Proc.devRef .tc main_v45) = val_main_v47 (F := Ideal) (a0 m c) (a1 m c) (a2 m c) := by
  show StableHlo.after hostOps2 (W4 m ρ c) (Proc.devRef .tc main_v45) = _
  after_results_simp
  rw [(keptTo4_main_v1 m ρ c).trans (row1 m ρ c), (keptTo4_main_v37 m ρ c).trans (agg3 m ρ c)]
  rfl

/-- Region 2's two input arrays as it finds them. -/
theorem gathered5_entry : V5 m ρ c main_v45 = val_main_v47 (F := Ideal) (a0 m c) (a1 m c) (a2 m c) := gathered5 m ρ c
theorem wcol5_entry : V5 m ρ c main_v25 = shapeCast S1200000x1 (val_main_v24 (F := Ideal) (a2 m c)) Facts₀.shapeCasts_S1200000_S1200000x1 :=
  (keptTo5_main_v25 m ρ c).trans (wcol1 m ρ c)

/-- Region 2 leaves the layer-2 messages. -/
theorem msg6 : W6 m ρ c (Proc.devRef .tc main_v46) = val_main_v49 (F := Ideal) (a0 m c) (a1 m c) (a2 m c) := by
  refine (W6_arr m ρ c 2).trans ((scale2_array (V5 m ρ) c).trans ?_)
  rw [gathered5_entry, wcol5_entry]
  refine (Bridge.scaleRows_eq _ _ _).trans ?_
  rw [← Bridge.weights_layer2]
  rfl

/-- The fourth host stretch scatters them: the layer-2 embeddings. -/
theorem agg7 : W7 m ρ c (Proc.devRef .tc main_v49) = val_main_v52 (F := Ideal) (a0 m c) (a1 m c) (a2 m c) := by
  show StableHlo.after hostOps3 (W6 m ρ c) (Proc.devRef .tc main_v49) = _
  after_results_simp
  rw [(keptTo6_main_v3 m ρ c).trans (col1 m ρ c), msg6]
  rfl

/-- Region 3's two input arrays as it finds them. -/
theorem acc7_entry : V7 m ρ c main_v38 = val_main_v39 (F := Ideal) (a0 m c) (a1 m c) (a2 m c) :=
  (keptTo7_main_v38 m ρ c).trans (acc4 m ρ c)
theorem agg7_entry : V7 m ρ c main_v49 = val_main_v52 (F := Ideal) (a0 m c) (a1 m c) (a2 m c) := agg7 m ρ c

/-- Region 3 adds them to the sum so far. -/
theorem acc8 : W8 m ρ c (Proc.devRef .tc main_v50) = val_main_v53 (F := Ideal) (a0 m c) (a1 m c) (a2 m c) := by
  refine (W8_arr m ρ c 2).trans ((add3_array (V7 m ρ) c).trans ?_)
  rw [acc7_entry, agg7_entry]
  rfl

/-! ## Layer 3 -/

/-- The fifth host stretch gathers the layer-2 embeddings by source index. -/
theorem gathered9 : W9 m ρ c (Proc.devRef .tc main_v57) = val_main_v61 (F := Ideal) (a0 m c) (a1 m c) (a2 m c) := by
  show StableHlo.after hostOps4 (W8 m ρ c) (Proc.devRef .tc main_v57) = _
  after_results_simp
  rw [(keptTo8_main_v1 m ρ c).trans (row1 m ρ c), (keptTo8_main_v49 m ρ c).trans (agg7 m ρ c)]
  rfl

/-- Region 4's two input arrays as it finds them. -/
theorem gathered9_entry : V9 m ρ c main_v57 = val_main_v61 (F := Ideal) (a0 m c) (a1 m c) (a2 m c) := gathered9 m ρ c
theorem wcol9_entry : V9 m ρ c main_v25 = shapeCast S1200000x1 (val_main_v24 (F := Ideal) (a2 m c)) Facts₀.shapeCasts_S1200000_S1200000x1 :=
  (keptTo9_main_v25 m ρ c).trans (wcol1 m ρ c)

/-- Region 4 leaves the layer-3 messages. -/
theorem msg10 : W10 m ρ c (Proc.devRef .tc main_v58) = val_main_v63 (F := Ideal) (a0 m c) (a1 m c) (a2 m c) := by
  refine (W10_arr m ρ c 2).trans ((scale4_array (V9 m ρ) c).trans ?_)
  rw [gathered9_entry, wcol9_entry]
  refine (Bridge.scaleRows_eq _ _ _).trans ?_
  rw [← Bridge.weights_layer3]
  rfl

/-- The sixth host stretch scatters them: the layer-3 embeddings. -/
theorem agg11 : W11 m ρ c (Proc.devRef .tc main_v61) = val_main_v66 (F := Ideal) (a0 m c) (a1 m c) (a2 m c) := by
  show StableHlo.after hostOps5 (W10 m ρ c) (Proc.devRef .tc main_v61) = _
  after_results_simp
  rw [(keptTo10_main_v3 m ρ c).trans (col1 m ρ c), msg10]
  rfl

/-- Region 5's two input arrays as it finds them. -/
theorem acc11_entry : V11 m ρ c main_v50 = val_main_v53 (F := Ideal) (a0 m c) (a1 m c) (a2 m c) :=
  (keptTo11_main_v50 m ρ c).trans (acc8 m ρ c)
theorem agg11_entry : V11 m ρ c main_v61 = val_main_v66 (F := Ideal) (a0 m c) (a1 m c) (a2 m c) := agg11 m ρ c

/-- Region 5 adds them: the sum of the four layers' embeddings. -/
theorem acc12 : W12 m ρ c (Proc.devRef .tc main_v62) = val_main_v67 (F := Ideal) (a0 m c) (a1 m c) (a2 m c) := by
  refine (W12_arr m ρ c 2).trans ((add5_array (V11 m ρ) c).trans ?_)
  rw [acc11_entry, agg11_entry]
  rfl

/-- Region 6's input array as it finds it. -/
theorem acc12_entry : V12 m ρ c main_v62 = val_main_v67 (F := Ideal) (a0 m c) (a1 m c) (a2 m c) := acc12 m ρ c

/-! ## The mean -/

/-- THE KERNEL'S RESULT: region 6 leaves a quarter of that sum, which is the reference's quotient by four — the
    reference's last stage of the three argument arrays. -/
theorem result : W13 m ρ c (Proc.devRef .tc main_v63) = val_main_v69 (F := Ideal) (a0 m c) (a1 m c) (a2 m c) := by
  refine (W13_arr m ρ c 1).trans ((quarter6_array (V12 m ρ) c).trans ?_)
  rw [acc12_entry]
  exact Bridge.quarterOf_eq _

end Cert.KernelIdeal.Chain

end
-- ==== Proof.lean ====
/-
  LightGCN message passing, three layers and a layer mean, over 150000 nodes, 1200000 edges and embeddings of
  width 64: the kernel's program against its jnp reference, equal at the extended reals on every input.

  Both programs compute, from the edge list, each node's degree (a scatter-add of ones at the source index), its
  power -1/2, and each edge's weight, the product of that power gathered at the edge's two ends; then three times:
  gather the current embeddings by source index, scale each gathered row by its edge's weight, scatter-add the rows at
  the target index, and add the result to a running sum that starts at the concatenated input embeddings; and last
  the mean of the four layers. The degree, the power, the gathers and the scatter-adds are the same host operations
  in both. The kernel's program differs in three places, each a Pallas call: the scaling (rows times weight, where
  the reference has weight times rows; the weight column a reshape, where the reference has a broadcast), the running
  sum (the same sum), and the mean (times the word that denotes 1/4, where the reference divides by the word that
  denotes 4). On the extended reals a product does not depend on the order of its factors, and the quotient by the
  real 4 IS the product with the real 1/4 — infinities included, so nothing is asked of the inputs: an isolated node's
  infinite weight, or an edge index out of range, is carried through both programs alike.

  The pieces: Proof/RegionScale{0,2,4}.lean, RegionAdd{1,3,5}.lean, RegionQuarter6.lean — each Pallas call's output
  array as one function of its input arrays; Proof/KernelRun.lean — the kernel program's run with its result named;
  Proof/ChainKept.lean and Chain.lean — that result followed back through the host stretches and the regions to the
  reference's own last stage of the three arguments; Proof/LibScaleLaws.lean and LayerBridge.lean — the two laws.
  The reference's run and its stages are the generated modules.
-/
import proofs.«174279_j42932493091121_1_alg».proof.Defs
import proofs.«174279_j42932493091121_1_alg».proof.Proof.Gen.Kernel
import proofs.«174279_j42932493091121_1_alg».proof.Proof.Gen.Kernel.Skeleton
import proofs.«174279_j42932493091121_1_alg».proof.Proof.Gen.Kernel.Launch
import proofs.«174279_j42932493091121_1_alg».proof.Proof.Gen.Kernel.Points
import proofs.«174279_j42932493091121_1_alg».proof.Proof.Gen.Kernel.Frame
import proofs.«174279_j42932493091121_1_alg».proof.Proof.Gen.KernelIdeal
import proofs.«174279_j42932493091121_1_alg».proof.Proof.Gen.KernelIdeal.Skeleton
import proofs.«174279_j42932493091121_1_alg».proof.Proof.Gen.KernelIdeal.Launch
import proofs.«174279_j42932493091121_1_alg».proof.Proof.Gen.KernelIdeal.Points
import proofs.«174279_j42932493091121_1_alg».proof.Proof.Gen.KernelIdeal.Frame
import proofs.«174279_j42932493091121_1_alg».proof.Proof.Gen.ReferenceIdeal
import proofs.«174279_j42932493091121_1_alg».proof.Proof.Gen.ReferenceIdeal.Run
import proofs.«174279_j42932493091121_1_alg».proof.Proof.Gen.ReferenceIdeal.Read
import proofs.«174279_j42932493091121_1_alg».proof.Proof.Gen.Pre_finite_inputs
import proofs.«174279_j42932493091121_1_alg».proof.Proof.KernelRun
import proofs.«174279_j42932493091121_1_alg».proof.Proof.Chain
import Idealize.ShloMosaic.Adequacy
import Idealize.ShloMosaic.Init

noncomputable section

namespace Cert.Proof

open Idealize.ShloMosaic Idealize.SL.Sem

/-- The kernel's program as printed runs and leaves its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the three arguments both programs end with the reference's last stage of those
    arguments in their result arrays: the kernel's by the chain through its regions, the reference's by its run. -/
theorem algebraic : Cert.algebraic_KernelIdeal_ReferenceIdeal := by
  intro m ρ m' ρ' _ hagree
  refine ⟨fun c => Cert.ReferenceIdeal.Read.val_main_v69 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Chain.result m ρ c), (h c).2⟩)
      (Cert.KernelIdeal.NamedRun.run_named m ρ)
  · refine (θ_run Cert.ReferenceIdeal.defs _ _).mono (fun r h c => ⟨(h c).1.trans ?_, (h c).2⟩)
      (Cert.ReferenceIdeal.Value.run (F := Ideal) m' ρ')
    show Cert.ReferenceIdeal.Value.res_main_v69 m' c = Cert.ReferenceIdeal.Read.val_main_v69 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
    rw [Cert.ReferenceIdeal.Read.val_main_v69_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
